-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S2x1x64 : Shape := ⟨3, ![2, 1, 64]⟩
abbrev S10000x64 : Shape := ⟨2, ![10000, 64]⟩
abbrev S1x1x64 : Shape := ⟨3, ![1, 1, 64]⟩

abbrev nBuf : Space → Nat
  | .hbm => 105
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1700000x1, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x64, .f32⟩
  | .hbm, ⟨79, _⟩ => ⟨S1700000x64, .f32⟩
  | .hbm, ⟨80, _⟩ => ⟨S_, .f32⟩
  | .hbm, ⟨81, _⟩ => ⟨S100000x64, .f32⟩
  | .hbm, ⟨82, _⟩ => ⟨S1700000x1, .i32⟩
  | .hbm, ⟨83, _⟩ => ⟨S100000x64, .f32⟩
  | .hbm, ⟨84, _⟩ => ⟨S1x64, .f32⟩
  | .hbm, ⟨85, _⟩ => ⟨S1x64, .f32⟩
  | .hbm, ⟨86, _⟩ => ⟨S1x64, .f32⟩
  | .hbm, ⟨87, _⟩ => ⟨S2x1x64, .f32⟩
  | .hbm, ⟨88, _⟩ => ⟨S2x1x64, .f32⟩
  | .hbm, ⟨89, _⟩ => ⟨S_, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S_, .f32⟩
  | .hbm, ⟨94, _⟩ => ⟨S1x64, .f32⟩
  | .hbm, ⟨95, _⟩ => ⟨S1x64, .f32⟩
  | .hbm, ⟨96, _⟩ => ⟨S_, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S_, .f32⟩
  | .hbm, ⟨102, _⟩ => ⟨S1x64, .f32⟩
  | .hbm, ⟨103, _⟩ => ⟨S1x64, .f32⟩
  | .hbm, ⟨104, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S10000x64, .f32⟩
  | .local _ .vmem, ⟨9, _⟩ => ⟨S10000x64, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63_0 : Ref sig .tc := ⟨.hbm, 87, rfl⟩
abbrev main_v63_1 : Ref sig .tc := ⟨.hbm, 88, rfl⟩
abbrev main_cst_13 : Ref sig .tc := ⟨.hbm, 89, rfl⟩
abbrev main_v64 : Ref sig .tc := ⟨.hbm, 90, rfl⟩
abbrev main_cst_14 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_v67 : Ref sig .tc := ⟨.hbm, 95, rfl⟩
abbrev main_cst_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_17 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x1x64_S1x1x64_0_0_0 : ∀ a, (![0, 0, 0] : Fin 3 → Nat) a + S1x1x64.size a ≤ S1x1x64.size a
  h_S1x1x64 : 0 < S1x1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S1x1x64_S1x1x64 : S1x1x64.ShapeCasts S1x1x64
  reduces_S10000x64_S64 : S10000x64.Reduces [0] S64
  shapeCasts_S1x64_S1x1x64 : S1x64.ShapeCasts S1x1x64
  reducesTo_S2x1x64_S1x64_d0 : S2x1x64.ReducesTo [0] S1x64
  h_S_ : 0 < S_.numel
  bcast_S_S1x64 : S_.BroadcastsInDim S1x64 (![] : Fin 0 → Fin S1x64.rank)
  natLt_1_32 : 1 < 32
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S2x1x64.size a
  hwx0_4 : ∀ i : grid0.Coords, EltTy.bits .f32 = 32 ∨ (Rect.block (s := S2x1x64) S1x1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v59) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v63_0) S1x1x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v63_1) S1x1x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v59) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v67) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v62) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64, .f32⟩
  | 6 => ⟨S64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S1700000x1, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1700000x1, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x64, .f32⟩
  | 78 => ⟨S1700000x64, .f32⟩
  | 79 => ⟨S1700000x64, .f32⟩
  | 80 => ⟨S_, .f32⟩
  | 81 => ⟨S100000x64, .f32⟩
  | 82 => ⟨S1700000x1, .i32⟩
  | 83 => ⟨S100000x64, .f32⟩
  | 84 => ⟨S64x64, .f32⟩
  | 85 => ⟨S100000x64, .f32⟩
  | 86 => ⟨S1x64, .f32⟩
  | 87 => ⟨S100000x64, .f32⟩
  | 88 => ⟨S100000x64, .f32⟩
  | 89 => ⟨S_, .f32⟩
  | 90 => ⟨S64, .f32⟩
  | 91 => ⟨S_, .f32⟩
  | 92 => ⟨S64, .f32⟩
  | 93 => ⟨S64, .f32⟩
  | 94 => ⟨S1x64, .f32⟩
  | 95 => ⟨S100000x64, .f32⟩
  | 96 => ⟨S100000x64, .f32⟩
  | 97 => ⟨S100000x64, .f32⟩
  | 98 => ⟨S_, .f32⟩
  | 99 => ⟨S64, .f32⟩
  | 100 => ⟨S_, .f32⟩
  | 101 => ⟨S64, .f32⟩
  | 102 => ⟨S64, .f32⟩
  | 103 => ⟨S1x64, .f32⟩
  | 104 => ⟨S100000x64, .f32⟩
  | 105 => ⟨S100000x64, .f32⟩
  | 106 => ⟨S_, .f32⟩
  | 107 => ⟨S64, .f32⟩
  | 108 => ⟨S64, .f32⟩
  | 109 => ⟨S64, .f32⟩
  | 110 => ⟨S1x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S1x64, .f32⟩
  | 117 => ⟨S100000x64, .f32⟩
  | 118 => ⟨S100000x64, .f32⟩
  | 119 => ⟨S_, .f32⟩
  | 120 => ⟨S100000x64, .f32⟩
  | 121 => ⟨S100000x64, .f32⟩
  | 122 => ⟨S_, .f32⟩
  | 123 => ⟨S100000x64, .f32⟩
  | 124 => ⟨S100000x64, .f32⟩
  | 125 => ⟨S_, .f32⟩
  | 126 => ⟨S100000x64, .f32⟩
  | 127 => ⟨S100000x64, .f32⟩
  | _ => ⟨S100000x64, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S100000x64, .f32⟩
  | 5 => ⟨S100000x64, .i1⟩
  | 6 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_10 : Ref sig .tc := ⟨.hbm, 69, rfl⟩
abbrev main_v48 : Ref sig .tc := ⟨.hbm, 70, rfl⟩
abbrev main_v49 : Ref sig .tc := ⟨.hbm, 71, rfl⟩
abbrev main_c_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_cst_19 : Ref sig .tc := ⟨.hbm, 122, rfl⟩
abbrev main_v92 : Ref sig .tc := ⟨.hbm, 123, rfl⟩
abbrev main_v93 : Ref sig .tc := ⟨.hbm, 124, rfl⟩
abbrev main_cst_20 : Ref sig .tc := ⟨.hbm, 125, rfl⟩
abbrev main_v94 : Ref sig .tc := ⟨.hbm, 126, rfl⟩
abbrev main_v95 : Ref sig .tc := ⟨.hbm, 127, rfl⟩
abbrev main_cst_21 : Ref sig .tc := ⟨.hbm, 128, rfl⟩
abbrev main_v96 : Ref sig .tc := ⟨.hbm, 129, rfl⟩
abbrev main_v97 : Ref sig .tc := ⟨.hbm, 130, rfl⟩
abbrev main_cst_22 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  The mathematics both programs compute, stated once over the extended reals.

  From the aggregated node features `X` (100000 × 64), the weight `W` (64 × 64) and the bias `b`:
  the projection `h r d = (∑ k, X r k * W d k) + b d`; per feature `d` the mean of `h · d` over the
  100000 nodes and its biased variance; the normalised, scaled and shifted value; one charge step of
  the neuron (half of it, from rest 0) and the spike where the charge reaches the threshold 1.

  The reference takes the variance as the mean of the squared deviations, and compares
  `charge - 1 ≥ 0`; the kernel takes it as `max (mean of squares - mean², 0)` and compares
  `charge ≥ 1`.  Over real numbers the two agree (module Algebra).
-/
import Idealize.ShloMosaic.PureOps.Ideal
import Idealize.ShloMosaic.PureOps.Ideal.Laws

noncomputable section

namespace Cert.Spec

open Idealize.ShloMosaic
open scoped BigOperators

/-- The float words both programs carry, as the extended reals they denote. -/
abbrev zE : EReal := Ideal.ofBits .f32 0x00000000#32
abbrev oneE : EReal := Ideal.ofBits .f32 0x3F800000#32
abbrev halfE : EReal := Ideal.ofBits .f32 0x3F000000#32
abbrev twoE : EReal := Ideal.ofBits .f32 0x40000000#32
abbrev nE : EReal := Ideal.ofBits .f32 0x47C35000#32
abbrev epsE : EReal := Ideal.ofBits .f32 0x3727C5AC#32

/-- Node `10000 * (5 * cc + j) + row`: core `cc`'s `j`-th tile of 10000 rows, row `row` of it. -/
def rowOf (cc : Fin 2) (j : Fin 5) (row : Fin 10000) : Fin 100000 :=
  ⟨(5 * cc.val + j.val) * 10000 + row.val, by have := cc.isLt; have := j.isLt; have := row.isLt; omega⟩

/-- Node `10000 * t + row`: row `row` of the `t`-th tile of 10000 rows. -/
def rowOf10 (t : Fin 10) (row : Fin 10000) : Fin 100000 :=
  ⟨t.val * 10000 + row.val, by have := t.isLt; have := row.isLt; omega⟩

/-- The linear projection with bias, entry by entry. -/
def hOf (X : Fin 100000 → Fin 64 → EReal) (W : Fin 64 → Fin 64 → EReal) (b : Fin 64 → EReal)
    (r : Fin 100000) (d : Fin 64) : EReal :=
  (∑ k : Fin 64, X r k * W d k) + b d

variable (H : Fin 100000 → Fin 64 → EReal) (gam bet : Fin 64 → EReal)

/-! ## The reference's reading -/

def meanRef (d : Fin 64) : EReal := Ideal.div (zE + ∑ k : Fin 100000, H k d) nE

def varRef (d : Fin 64) : EReal :=
  Ideal.div (zE + ∑ k : Fin 100000, (H k d - meanRef H d) * (H k d - meanRef H d)) nE

/-- The reference's spike from one entry of `h`, the feature's mean and variance, scale and shift. -/
def spikeRef (h μ var g b : EReal) : EReal :=
  (((Ideal.cmp .oge ((zE + Ideal.div ((((h - μ) * Ideal.rsqrt (var + epsE)) * g + b) - zE) twoE) - oneE) zE).toNat : ℝ) : EReal)

def refOut (r : Fin 100000) (d : Fin 64) : EReal :=
  spikeRef (H r d) (meanRef H d) (varRef H d) (gam d) (bet d)

/-! ## The kernel's reading -/

def meanKer (d : Fin 64) : EReal := Ideal.div (∑ k : Fin 100000, H k d) nE

def varKer (d : Fin 64) : EReal :=
  max (Ideal.div (∑ k : Fin 100000, H k d * H k d) nE - meanKer H d * meanKer H d) zE

/-- The kernel's spike from one entry of `h`, the feature's mean and variance, scale and shift. -/
def spikeKer (h μ var g b : EReal) : EReal :=
  ((((Ideal.cmp .oge (zE + ((((h - μ) * Ideal.rsqrt (var + epsE)) * g + b) * halfE)) oneE).setWidth 32).toInt : ℝ) : EReal)

def kerOut (r : Fin 100000) (d : Fin 64) : EReal :=
  spikeKer (H r d) (meanKer H d) (varKer H d) (gam d) (bet d)

end Cert.Spec

end
-- ==== Proof.KernelValue.lean ====
/-
  The kernel program's values at its segment boundaries, tied to the mathematics: the aggregated
  features the two kernels are handed are the reference's; the first kernel's per-core sums, added
  over the two cores and divided by the number of nodes, are the mean and the mean of squares; the
  second kernel's result is the kernel's spike.
-/
import proofs.«420227_j26465588478209_3_alg».proof.Proof.Gen.KernelIdeal.Frame
import proofs.«420227_j26465588478209_3_alg».proof.Proof.Gen.ReferenceIdeal.Read
import proofs.«420227_j26465588478209_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.KV

open Idealize.ShloMosaic Idealize.ShloMosaic.TcCoe Idealize.ShloMosaic.ValueIdx Idealize.SL.Sem Idealize.ShloMosaic.StableHlo
open Cert.KernelIdeal Cert.KernelIdeal.Gen Cert.Spec
open scoped BigOperators

variable (m : (ℓ : Loc nD τ sig) → Buf (Elt Ideal) ℓ) (ρ : Dev nD → PrngReg)

/-- The launch contents of the arguments. -/
abbrev a0 (c : Dev nD) : S100000x64.Idx → EReal := m ((c : Thread nD τ).loc main_arg0)
abbrev a1 (c : Dev nD) : S2x1600000.Idx → BitVec 32 := m ((c : Thread nD τ).loc main_arg1)
abbrev a2 (c : Dev nD) : S1600000.Idx → EReal := m ((c : Thread nD τ).loc main_arg2)
abbrev a3 (c : Dev nD) : S64x64.Idx → EReal := m ((c : Thread nD τ).loc main_arg3)
abbrev a4 (c : Dev nD) : S64.Idx → EReal := m ((c : Thread nD τ).loc main_arg4)
abbrev a5 (c : Dev nD) : S64.Idx → EReal := m ((c : Thread nD τ).loc main_arg5)
abbrev a6 (c : Dev nD) : S64.Idx → EReal := m ((c : Thread nD τ).loc main_arg6)

/-! ## The edge list, the weights and the degree normaliser: the first stretch of host operations -/

/-- The buffer contents after the first stretch. -/
abbrev U1 (c : Dev nD) : Valuation τ sig (Elt Ideal) := StableHlo.after hostOps0 (W0 m ρ c)

theorem u1_v3 (c : Dev nD) : (U1 m ρ c (Proc.devRef .tc main_v3) : S1700000.Idx → BitVec 32) = Cert.ReferenceIdeal.Read.val_main_v3 (F := Ideal) (a1 m c) := by
  show StableHlo.after hostOps0 (W0 m ρ c) (Proc.devRef .tc main_v3) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl
theorem u1_v6 (c : Dev nD) : (U1 m ρ c (Proc.devRef .tc main_v6) : S1700000.Idx → BitVec 32) = Cert.ReferenceIdeal.Read.val_main_v6 (F := Ideal) (a1 m c) := by
  show StableHlo.after hostOps0 (W0 m ρ c) (Proc.devRef .tc main_v6) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl
theorem u1_v8 (c : Dev nD) : (U1 m ρ c (Proc.devRef .tc main_v8) : S1700000.Idx → EReal) = Cert.ReferenceIdeal.Read.val_main_v8 (F := Ideal) (a2 m c) := by
  show StableHlo.after hostOps0 (W0 m ρ c) (Proc.devRef .tc main_v8) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl
theorem u1_v13 (c : Dev nD) : (U1 m ρ c (Proc.devRef .tc main_v13) : S100000.Idx → BitVec 1) = Cert.ReferenceIdeal.Read.val_main_v13 (F := Ideal) (a1 m c) (a2 m c) := by
  show StableHlo.after hostOps0 (W0 m ρ c) (Proc.devRef .tc main_v13) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl
theorem u1_v16 (c : Dev nD) : (U1 m ρ c (Proc.devRef .tc main_v16) : S100000.Idx → EReal) = Cert.ReferenceIdeal.Read.val_main_v16 (F := Ideal) (a1 m c) (a2 m c) := by
  show StableHlo.after hostOps0 (W0 m ρ c) (Proc.devRef .tc main_v16) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl
theorem u1_cst3 (c : Dev nD) : (U1 m ρ c (Proc.devRef .tc main_cst_3) : S_.Idx → EReal) = Cert.ReferenceIdeal.Read.val_main_cst_3 (F := Ideal) := by
  show StableHlo.after hostOps0 (W0 m ρ c) (Proc.devRef .tc main_cst_3) = _
  after_results_simp
  repeat (first
    | rw [nullary_result] | rw [unary_result] | rw [binary_result] | rw [ternary_result] | rw [reshape_result]
    | (rw [nullary_result_ne]; rotate_left; decide) | (rw [unary_result_ne]; rotate_left; decide)
    | (rw [binary_result_ne]; rotate_left; decide) | (rw [ternary_result_ne]; rotate_left; decide)
    | (rw [reshape_result_ne]; rotate_left; decide))
  rfl
theorem u1_arg0 (c : Dev nD) : (U1 m ρ c (Proc.devRef .tc main_arg0) : S100000x64.Idx → EReal) = a0 m c := by
  show StableHlo.after hostOps0 (W0 m ρ c) (Proc.devRef .tc main_arg0) = _
  after_results_simp <;> rfl

/-! ## The select: the second stretch -/

abbrev U2 (c : Dev nD) : Valuation τ sig (Elt Ideal) := StableHlo.after hostOps0_1 (U1 m ρ c)

/-- A value's buffer has the value's type: reading or writing it through the typed reference changes nothing. -/
theorem toBuf_v17 (h1 h2 h3) (X : S100000.Idx → EReal) :
    (TRef.of (sig := sig) (T := ⟨S100000, .f32⟩) main_v17 h1 h2 h3).toBuf (Val := Elt Ideal) X = X := cast_eq _ X
theorem ofBuf_v13 (h1 h2 h3) (X : S100000.Idx → BitVec 1) :
    (TRef.of (sig := sig) (T := ⟨S100000, .i1⟩) main_v13 h1 h2 h3).ofBuf (Val := Elt Ideal) X = X := cast_eq _ X
theorem ofBuf_v16 (h1 h2 h3) (X : S100000.Idx → EReal) :
    (TRef.of (sig := sig) (T := ⟨S100000, .f32⟩) main_v16 h1 h2 h3).ofBuf (Val := Elt Ideal) X = X := cast_eq _ X
theorem ofBuf_c0v1 (h1 h2 h3) (X : S100000.Idx → EReal) :
    (TRef.of (sig := sig) (T := ⟨S100000, .f32⟩) main_call0_v1 h1 h2 h3).ofBuf (Val := Elt Ideal) X = X := cast_eq _ X
theorem toBuf_c0v1 (h1 h2 h3) (X : S100000.Idx → EReal) :
    (TRef.of (sig := sig) (T := ⟨S100000, .f32⟩) main_call0_v1 h1 h2 h3).toBuf (Val := Elt Ideal) X = X := cast_eq _ X
theorem ofBuf_c0v0 (h1 h2 h3) (X : S_.Idx → EReal) :
    (TRef.of (sig := sig) (T := ⟨S_, .f32⟩) main_call0_v0 h1 h2 h3).ofBuf (Val := Elt Ideal) X = X := cast_eq _ X
theorem toBuf_c0v0 (h1 h2 h3) (X : S_.Idx → EReal) :
    (TRef.of (sig := sig) (T := ⟨S_, .f32⟩) main_call0_v0 h1 h2 h3).toBuf (Val := Elt Ideal) X = X := cast_eq _ X
theorem ofBuf_cst3 (h1 h2 h3) (X : S_.Idx → EReal) :
    (TRef.of (sig := sig) (T := ⟨S_, .f32⟩) main_cst_3 h1 h2 h3).ofBuf (Val := Elt Ideal) X = X := cast_eq _ X

theorem u2_v17 (c : Dev nD) : (U2 m ρ c (Proc.devRef .tc main_v17) : S100000.Idx → EReal) = Cert.ReferenceIdeal.Read.val_main_v17 (F := Ideal) (a1 m c) (a2 m c) := by
  show StableHlo.after hostOps0_1 (U1 m ρ c) (Proc.devRef .tc main_v17) = _
  generalize hU : U1 m ρ c = U
  after_results_simp
  subst hU
  rw [u1_v13 m ρ c, u1_v16 m ρ c, u1_cst3 m ρ c]
  refine (toBuf_v17 _ _ _ _).trans ?_
  rw [ofBuf_v13, ofBuf_v16, ofBuf_c0v1, toBuf_c0v1, ofBuf_c0v0, toBuf_c0v0, ofBuf_cst3]
  rfl

theorem u2_v3 (c : Dev nD) : (U2 m ρ c (Proc.devRef .tc main_v3) : S1700000.Idx → BitVec 32) = Cert.ReferenceIdeal.Read.val_main_v3 (F := Ideal) (a1 m c) := by
  show StableHlo.after hostOps0_1 (U1 m ρ c) (Proc.devRef .tc main_v3) = _
  generalize hU : U1 m ρ c = U
  after_results_simp
  subst hU
  exact u1_v3 m ρ c
theorem u2_v6 (c : Dev nD) : (U2 m ρ c (Proc.devRef .tc main_v6) : S1700000.Idx → BitVec 32) = Cert.ReferenceIdeal.Read.val_main_v6 (F := Ideal) (a1 m c) := by
  show StableHlo.after hostOps0_1 (U1 m ρ c) (Proc.devRef .tc main_v6) = _
  generalize hU : U1 m ρ c = U
  after_results_simp
  subst hU
  exact u1_v6 m ρ c
theorem u2_v8 (c : Dev nD) : (U2 m ρ c (Proc.devRef .tc main_v8) : S1700000.Idx → EReal) = Cert.ReferenceIdeal.Read.val_main_v8 (F := Ideal) (a2 m c) := by
  show StableHlo.after hostOps0_1 (U1 m ρ c) (Proc.devRef .tc main_v8) = _
  generalize hU : U1 m ρ c = U
  after_results_simp
  subst hU
  exact u1_v8 m ρ c
theorem u2_arg0 (c : Dev nD) : (U2 m ρ c (Proc.devRef .tc main_arg0) : S100000x64.Idx → EReal) = a0 m c := by
  show StableHlo.after hostOps0_1 (U1 m ρ c) (Proc.devRef .tc main_arg0) = _
  generalize hU : U1 m ρ c = U
  after_results_simp
  subst hU
  exact u1_arg0 m ρ c

/-! ## The two rounds of weighted neighbour sums: the third stretch -/

abbrev U3 (c : Dev nD) : Valuation τ sig (Elt Ideal) := StableHlo.after hostOps0_2 (U2 m ρ c)

/-- The aggregated features at the first kernel's entry are the reference's aggregation of the same inputs. -/
theorem u3_v59 (c : Dev nD) : (U3 m ρ c (Proc.devRef .tc main_v59) : S100000x64.Idx → EReal)
    = Cert.ReferenceIdeal.Read.val_main_v59 (F := Ideal) (a0 m c) (a1 m c) (a2 m c) := by
  show StableHlo.after hostOps0_2 (U2 m ρ c) (Proc.devRef .tc main_v59) = _
  generalize hU : U2 m ρ c = U
  after_results_simp
  subst hU
  rw [u2_v17 m ρ c, u2_v3 m ρ c, u2_v6 m ρ c, u2_v8 m ρ c, u2_arg0 m ρ c]
  rfl

/-! ## The weight, the bias, the scale and the shift as the kernels are handed them -/

theorem u1_arg3 (c : Dev nD) : (U1 m ρ c (Proc.devRef .tc main_arg3) : S64x64.Idx → EReal) = a3 m c := by
  show StableHlo.after hostOps0 (W0 m ρ c) (Proc.devRef .tc main_arg3) = _
  after_results_simp <;> rfl
theorem u2_arg3 (c : Dev nD) : (U2 m ρ c (Proc.devRef .tc main_arg3) : S64x64.Idx → EReal) = a3 m c := by
  show StableHlo.after hostOps0_1 (U1 m ρ c) (Proc.devRef .tc main_arg3) = _
  generalize hU : U1 m ρ c = U
  after_results_simp
  subst hU
  exact u1_arg3 m ρ c
theorem u1_arg4 (c : Dev nD) : (U1 m ρ c (Proc.devRef .tc main_arg4) : S64.Idx → EReal) = a4 m c := by
  show StableHlo.after hostOps0 (W0 m ρ c) (Proc.devRef .tc main_arg4) = _
  after_results_simp <;> rfl
theorem u2_arg4 (c : Dev nD) : (U2 m ρ c (Proc.devRef .tc main_arg4) : S64.Idx → EReal) = a4 m c := by
  show StableHlo.after hostOps0_1 (U1 m ρ c) (Proc.devRef .tc main_arg4) = _
  generalize hU : U1 m ρ c = U
  after_results_simp
  subst hU
  exact u1_arg4 m ρ c
theorem u1_arg5 (c : Dev nD) : (U1 m ρ c (Proc.devRef .tc main_arg5) : S64.Idx → EReal) = a5 m c := by
  show StableHlo.after hostOps0 (W0 m ρ c) (Proc.devRef .tc main_arg5) = _
  after_results_simp <;> rfl
theorem u2_arg5 (c : Dev nD) : (U2 m ρ c (Proc.devRef .tc main_arg5) : S64.Idx → EReal) = a5 m c := by
  show StableHlo.after hostOps0_1 (U1 m ρ c) (Proc.devRef .tc main_arg5) = _
  generalize hU : U1 m ρ c = U
  after_results_simp
  subst hU
  exact u1_arg5 m ρ c
theorem u1_arg6 (c : Dev nD) : (U1 m ρ c (Proc.devRef .tc main_arg6) : S64.Idx → EReal) = a6 m c := by
  show StableHlo.after hostOps0 (W0 m ρ c) (Proc.devRef .tc main_arg6) = _
  after_results_simp <;> rfl
theorem u2_arg6 (c : Dev nD) : (U2 m ρ c (Proc.devRef .tc main_arg6) : S64.Idx → EReal) = a6 m c := by
  show StableHlo.after hostOps0_1 (U1 m ρ c) (Proc.devRef .tc main_arg6) = _
  generalize hU : U1 m ρ c = U
  after_results_simp
  subst hU
  exact u1_arg6 m ρ c

theorem u3_arg3 (c : Dev nD) : (U3 m ρ c (Proc.devRef .tc main_arg3) : S64x64.Idx → EReal) = a3 m c := by
  show StableHlo.after hostOps0_2 (U2 m ρ c) (Proc.devRef .tc main_arg3) = _
  generalize hU : U2 m ρ c = U
  after_results_simp
  subst hU
  exact u2_arg3 m ρ c

/-- The bias as a [1,64] row. -/
theorem u3_v60 (c : Dev nD) (d : Fin 64) : (U3 m ρ c (Proc.devRef .tc main_v60) : S1x64.Idx → EReal) (ix2 (0 : Fin 1) d) = a4 m c (ix1 d) := by
  have e : (U3 m ρ c (Proc.devRef .tc main_v60) : S1x64.Idx → EReal) = shapeCast S1x64 (a4 m c) shapeCasts_S64_S1x64 := by
    show StableHlo.after hostOps0_2 (U2 m ρ c) (Proc.devRef .tc main_v60) = _
    generalize hU : U2 m ρ c = U
    after_results_simp
    subst hU
    rw [u2_arg4 m ρ c]
    rfl
  rw [e]
  exact shapeCast_a_1a_apply (a4 m c) shapeCasts_S64_S1x64 0 d
/-- The scale as a [1,64] row. -/
theorem u3_v61 (c : Dev nD) (d : Fin 64) : (U3 m ρ c (Proc.devRef .tc main_v61) : S1x64.Idx → EReal) (ix2 (0 : Fin 1) d) = a5 m c (ix1 d) := by
  have e : (U3 m ρ c (Proc.devRef .tc main_v61) : S1x64.Idx → EReal) = shapeCast S1x64 (a5 m c) shapeCasts_S64_S1x64 := by
    show StableHlo.after hostOps0_2 (U2 m ρ c) (Proc.devRef .tc main_v61) = _
    generalize hU : U2 m ρ c = U
    after_results_simp
    subst hU
    rw [u2_arg5 m ρ c]
    rfl
  rw [e]
  exact shapeCast_a_1a_apply (a5 m c) shapeCasts_S64_S1x64 0 d
/-- The shift as a [1,64] row. -/
theorem u3_v62 (c : Dev nD) (d : Fin 64) : (U3 m ρ c (Proc.devRef .tc main_v62) : S1x64.Idx → EReal) (ix2 (0 : Fin 1) d) = a6 m c (ix1 d) := by
  have e : (U3 m ρ c (Proc.devRef .tc main_v62) : S1x64.Idx → EReal) = shapeCast S1x64 (a6 m c) shapeCasts_S64_S1x64 := by
    show StableHlo.after hostOps0_2 (U2 m ρ c) (Proc.devRef .tc main_v62) = _
    generalize hU : U2 m ρ c = U
    after_results_simp
    subst hU
    rw [u2_arg6 m ρ c]
    rfl
  rw [e]
  exact shapeCast_a_1a_apply (a6 m c) shapeCasts_S64_S1x64 0 d

end Cert.KernelIdeal.KV

end
-- ==== Proof.Region0.lean ====
/-
  The first kernel (2 cores × 5 tiles of 10000 nodes each): per core it accumulates, over its five
  tiles, the column sums of the projection `h` and of `h * h`.  After the run, row `cc` of each
  result array holds core `cc`'s total over its 50000 nodes.

  The road: what one grid point leaves in the two [1,1,64] blocks, as the body's arithmetic of the
  staged blocks (a reset to zero first at a tile that opens a core's run); that arithmetic at an
  entry — the block's old value plus the sum over the tile's 10000 rows of the projection
  `(∑ k, x row k * w d k) + b d`, or of its square; the staged blocks read off the arrays (tile `t`
  is rows `10000 t …` of the features, the weight and the bias row are staged whole); by induction
  on the point, a block after point `n` holds the sum over the tiles of `n`'s core up to `n` (a
  leading zero dropped, `0 + x = x`; sums over the extended reals re-associate freely); the block
  is written back after the fifth tile of a core, into row `n / 5`, and the two write-backs cover
  the two rows of each result.
-/
import proofs.«420227_j26465588478209_3_alg».proof.Proof.Gen.KernelIdeal.Frame
import proofs.«420227_j26465588478209_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.R0

open Idealize.ShloMosaic Idealize.ShloMosaic.TcCoe Idealize.ShloMosaic.ValueIdx Idealize.SL.Sem
open Idealize.ShloMosaic.Tactic
open Cert.KernelIdeal Cert.KernelIdeal.Gen Cert.Spec
open scoped BigOperators

variable (V : (c : Dev nD) → (b : Ref sig .tc) → Buf (Elt Ideal) ((c : Thread nD τ).loc b))

/-- The aggregated features, the weight and the bias row as the first kernel finds them. -/
abbrev Xv (c : Dev nD) : S100000x64.Idx → EReal := V c main_v59
abbrev Wv (c : Dev nD) : S64x64.Idx → EReal := V c main_arg3
abbrev bv (c : Dev nD) : S1x64.Idx → EReal := V c main_v60

/-- The projection with bias of what the kernel finds. -/
def hK (c : Dev nD) : Fin 100000 → Fin 64 → EReal :=
  hOf (fun r k => Xv V c (ix2 r k)) (fun d k => Wv V c (ix2 d k)) (fun d => bv V c (ix2 (0 : Fin 1) d))

/-! ## What one grid point leaves in the two result blocks

Each case of the body ends with one store of the whole `[1,1,64]` block; at a tile that opens a core's
run a store of the zero block comes first and is read back by the accumulating load. -/

theorem hz3 : (![0, 0, 0] : Fin 3 → Nat) = fun _ => 0 := funext fun a => by fin_cases a <;> rfl
theorem hz2 : (![0, 0] : Fin 2 → Nat) = fun _ => 0 := funext fun a => by fin_cases a <;> rfl

/-- A tile inside a core's run: the first block becomes the sum payload over what it held. -/
theorem sum_keep (c : Dev nD) (i : grid0.Coords) (a2 : Memref sig .tc .vmem S10000x64 .f32) (h2 : a2.IsWhole)
    (a3 : Memref sig .tc .vmem S64x64 .f32) (h3 : a3.IsWhole) (a4 : Memref sig .tc .vmem S1x64 .f32) (h4 : a4.IsWhole)
    (a5 : Memref sig .tc .vmem S1x1x64 .f32) (h5 : a5.IsWhole) (a6 : Memref sig .tc .vmem S1x1x64 .f32) (h6 : a6.IsWhole)
    (hc : ¬cond0_0 i) (x0 : Vec Ideal S10000x64 .f32) (x1 : Vec Ideal S64x64 .f32) (x2 : Vec Ideal S1x64 .f32)
    (xo3 xo4 : Vec Ideal S1x1x64 .f32) :
    out0_B_3 c i a2 h2 a3 h3 a4 h4 a5 h5 a6 h6 hc x0 x1 x2 xo3 xo4 = k0_pay4 x0 x1 x2 xo3 := by
  unfold out0_B_3
  rw [View.read_writes_eq_canon _ _ _ (cover0_B_3 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h5.read_unread,
    View.ld_unit_zero (S := S10000x64) hz2, View.ld_unit_zero (S := S64x64) hz2, View.ld_unit_zero (S := S1x64) hz2,
    View.ld_unit_zero (S := S1x1x64) hz3]

/-- A tile that opens a core's run: the first block becomes the sum payload over the zero block. -/
theorem sum_open (c : Dev nD) (i : grid0.Coords) (a2 : Memref sig .tc .vmem S10000x64 .f32) (h2 : a2.IsWhole)
    (a3 : Memref sig .tc .vmem S64x64 .f32) (h3 : a3.IsWhole) (a4 : Memref sig .tc .vmem S1x64 .f32) (h4 : a4.IsWhole)
    (a5 : Memref sig .tc .vmem S1x1x64 .f32) (h5 : a5.IsWhole) (a6 : Memref sig .tc .vmem S1x1x64 .f32) (h6 : a6.IsWhole)
    (hc : cond0_0 i) (x0 : Vec Ideal S10000x64 .f32) (x1 : Vec Ideal S64x64 .f32) (x2 : Vec Ideal S1x64 .f32) :
    out0_A_3 c i a2 h2 a3 h3 a4 h4 a5 h5 a6 h6 hc x0 x1 x2 = k0_pay4 x0 x1 x2 (k0_pay1 (F := Ideal)) := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread,
    View.ld_unit_zero (S := S10000x64) hz2, View.ld_unit_zero (S := S64x64) hz2, View.ld_unit_zero (S := S1x64) hz2,
    View.ld_unit_zero (S := S1x1x64) hz3]

/-- A tile inside a core's run: the second block becomes the sum-of-squares payload over what it held. -/
theorem sq_keep (c : Dev nD) (i : grid0.Coords) (a2 : Memref sig .tc .vmem S10000x64 .f32) (h2 : a2.IsWhole)
    (a3 : Memref sig .tc .vmem S64x64 .f32) (h3 : a3.IsWhole) (a4 : Memref sig .tc .vmem S1x64 .f32) (h4 : a4.IsWhole)
    (a5 : Memref sig .tc .vmem S1x1x64 .f32) (h5 : a5.IsWhole) (a6 : Memref sig .tc .vmem S1x1x64 .f32) (h6 : a6.IsWhole)
    (hc : ¬cond0_0 i) (x0 : Vec Ideal S10000x64 .f32) (x1 : Vec Ideal S64x64 .f32) (x2 : Vec Ideal S1x64 .f32)
    (xo3 xo4 : Vec Ideal S1x1x64 .f32) :
    out0_B_4 c i a2 h2 a3 h3 a4 h4 a5 h5 a6 h6 hc x0 x1 x2 xo3 xo4 = k0_pay5 x0 x1 x2 xo4 := by
  unfold out0_B_4
  rw [View.read_writes_eq_canon _ _ _ (cover0_B_4 c i a2 h2 a3 h3 a4 h4 a5 h5 a6 h6 hc x0 x1 x2 xo3 xo4)]
  unfold kernelRun0_B
  dsimp only
  sl_unfold_words
  rw [View.canon_unit_zero hz3]
  simp only [View.readAt_eq_ld, h2.read_unread, h3.read_unread, h4.read_unread, h6.read_unread,
    View.ld_unit_zero (S := S10000x64) hz2, View.ld_unit_zero (S := S64x64) hz2, View.ld_unit_zero (S := S1x64) hz2,
    View.ld_unit_zero (S := S1x1x64) hz3]

/-- A tile that opens a core's run: the second block becomes the sum-of-squares payload over the zero block. -/
theorem sq_open (c : Dev nD) (i : grid0.Coords) (a2 : Memref sig .tc .vmem S10000x64 .f32) (h2 : a2.IsWhole)
    (a3 : Memref sig .tc .vmem S64x64 .f32) (h3 : a3.IsWhole) (a4 : Memref sig .tc .vmem S1x64 .f32) (h4 : a4.IsWhole)
    (a5 : Memref sig .tc .vmem S1x1x64 .f32) (h5 : a5.IsWhole) (a6 : Memref sig .tc .vmem S1x1x64 .f32) (h6 : a6.IsWhole)
    (hc : cond0_0 i) (x0 : Vec Ideal S10000x64 .f32) (x1 : Vec Ideal S64x64 .f32) (x2 : Vec Ideal S1x64 .f32) :
    out0_A_4 c i a2 h2 a3 h3 a4 h4 a5 h5 a6 h6 hc x0 x1 x2 = k0_pay5 x0 x1 x2 (k0_pay2 (F := Ideal)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread,
    View.ld_unit_zero (S := S10000x64) hz2, View.ld_unit_zero (S := S64x64) hz2, View.ld_unit_zero (S := S1x64) hz2,
    View.ld_unit_zero (S := S1x1x64) hz3]

/-! ## The payloads at an index

The tile's projection is a matrix product into a zero accumulator plus the bias row broadcast over the
rows; the two blocks add to what they held the sum over the tile's rows of that projection, and of its
square. -/

/-- The tile's projection: row `row` of the staged features against row `d` of the weight, plus the bias. -/
def hTile (x0 : S10000x64.Idx → EReal) (x1 : S64x64.Idx → EReal) (x2 : S1x64.Idx → EReal)
    (row : Fin 10000) (d : Fin 64) : EReal :=
  (∑ k : Fin 64, x0 (ix2 row k) * x1 (ix2 d k)) + x2 (ix2 (0 : Fin 1) d)

theorem lhsAx0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhsAx1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhsAx0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhsAx1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The matrix product into a zero accumulator, at an entry: the sum over the contracted axis. -/
theorem matmul_zero_apply (l : FVec Ideal S10000x64 .f32) (r : FVec Ideal S64x64 .f32) (row : Fin 10000) (d : Fin 64) :
    matmul dot_S10000x64_S64x64_S10000x64_1_0_0_1_n_n (some .fp32) l r (constant (F := Ideal) S10000x64 .f32 0x00000000#32) (ix2 row d)
      = ∑ k : Fin 64, l (ix2 row k) * r (ix2 k d) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 row d) ((contrEquiv1 dot_S10000x64_S64x64_S10000x64_1_0_0_1_n_n 64 rfl rfl).symm k) = ix2 row k := funext fun a => Fin.ext (by
    match a with
    | ⟨0, _⟩ => exact lhsAx0 _ _
    | ⟨1, _⟩ => exact (lhsAx1 _ _).trans hk)
  have er : dot_S10000x64_S64x64_S10000x64_1_0_0_1_n_n.rhsIdx (ix2 row d) ((contrEquiv1 dot_S10000x64_S64x64_S10000x64_1_0_0_1_n_n 64 rfl rfl).symm k) = ix2 k d := funext fun a => Fin.ext (by
    match a with
    | ⟨0, _⟩ => exact (rhsAx0 _ _).trans hk
    | ⟨1, _⟩ => exact rhsAx1 _ _)
  rw [el, er]

/-- The projection payload at an entry of the tile. -/
theorem pay3_apply (x0 : Vec Ideal S10000x64 .f32) (x1 : Vec Ideal S64x64 .f32) (x2 : Vec Ideal S1x64 .f32)
    (row : Fin 10000) (d : Fin 64) :
    k0_pay3 (F := Ideal) x0 x1 x2 (ix2 row d) = hTile x0 x1 x2 row d := by
  unfold k0_pay3 hTile
  dsimp only
  refine (addf_apply _ _ _).trans ?_
  refine congrArg₂ (· + ·) ?_ ?_
  · refine (matmul_zero_apply _ _ row d).trans ?_
    refine Finset.sum_congr rfl fun k _ => ?_
    refine congrArg₂ (· * ·) ?_ ?_
    · exact congrFun (shapeCast_self x0 _) (ix2 row k)
    · exact transpose_ix2_apply x1 _ k d
  · refine (broadcastTo_1b_ab_apply _ _ row d).trans ?_
    exact congrFun (shapeCast_self x2 _) (ix2 (0 : Fin 1) d)

/-- A reduced column index with the row put back. -/
theorem lift_row (h : S10000x64.Reduces [0] S64) (d : Fin 64) (k : Fin (S10000x64.size 0)) :
    h.lift (ix1 d) k = ix2 (⟨k.val, k.isLt⟩ : Fin 10000) d := by
  funext a; apply Fin.ext
  fin_cases a <;> rfl

/-- The reduction over the tile's rows, at a column: the sum over the rows. -/
theorem colsum_apply (src : FVec Ideal S10000x64 .f32) (d : Fin 64) :
    multiReduction .add [0] S64 src 0x00000000#32 reduces_S10000x64_S64 (.inl rfl) rfl (ix1 d)
      = ∑ row : Fin 10000, src (ix2 row d) := by
  refine (Ideal.multiReduction_add_single src 0x00000000#32 reduces_S10000x64_S64 (.inl rfl) rfl (ix1 d)).trans ?_
  exact Finset.sum_congr rfl fun k _ => congrArg src (lift_row _ d k)

/-- The first block's payload at an entry: what it held plus the column sum of the tile's projection. -/
theorem pay4_apply (x0 : Vec Ideal S10000x64 .f32) (x1 : Vec Ideal S64x64 .f32) (x2 : Vec Ideal S1x64 .f32)
    (xo : Vec Ideal S1x1x64 .f32) (u v : Fin 1) (d : Fin 64) :
    k0_pay4 (F := Ideal) x0 x1 x2 xo (ix3 u v d) = xo (ix3 u v d) + ∑ row : Fin 10000, hTile x0 x1 x2 row d := by
  unfold k0_pay4
  dsimp only
  refine (addf_apply _ _ _).trans ?_
  refine congrArg₂ (· + ·) ?_ ?_
  · exact congrFun (shapeCast_self xo _) (ix3 u v d)
  · refine (shapeCast_ab_1ab_apply _ _ u v d).trans ?_
    refine (shapeCast_a_1a_apply _ _ v d).trans ?_
    refine (colsum_apply _ d).trans ?_
    exact Finset.sum_congr rfl fun row _ => pay3_apply x0 x1 x2 row d

/-- The second block's payload at an entry: what it held plus the column sum of the squared projection. -/
theorem pay5_apply (x0 : Vec Ideal S10000x64 .f32) (x1 : Vec Ideal S64x64 .f32) (x2 : Vec Ideal S1x64 .f32)
    (xo : Vec Ideal S1x1x64 .f32) (u v : Fin 1) (d : Fin 64) :
    k0_pay5 (F := Ideal) x0 x1 x2 xo (ix3 u v d)
      = xo (ix3 u v d) + ∑ row : Fin 10000, hTile x0 x1 x2 row d * hTile x0 x1 x2 row d := by
  unfold k0_pay5
  dsimp only
  refine (addf_apply _ _ _).trans ?_
  refine congrArg₂ (· + ·) ?_ ?_
  · exact congrFun (shapeCast_self xo _) (ix3 u v d)
  · refine (shapeCast_ab_1ab_apply _ _ u v d).trans ?_
    refine (shapeCast_a_1a_apply _ _ v d).trans ?_
    refine (colsum_apply _ d).trans ?_
    refine Finset.sum_congr rfl fun row _ => ?_
    refine (mulf_apply _ _ _).trans ?_
    exact congrArg₂ (· * ·) (pay3_apply x0 x1 x2 row d) (pay3_apply x0 x1 x2 row d)

/-- The zero blocks the opening tile stores. -/
theorem pay1_apply (j : S1x1x64.Idx) : k0_pay1 (F := Ideal) j = 0 := by
  unfold k0_pay1
  show Ideal.ofBits .f32 0x00000000#32 = 0
  exact Ideal.ofBits_zero_f32
theorem pay2_apply (j : S1x1x64.Idx) : k0_pay2 (F := Ideal) j = 0 := by
  unfold k0_pay2
  show Ideal.ofBits .f32 0x00000000#32 = 0
  exact Ideal.ofBits_zero_f32

/-! ## The staged blocks, read off the arrays

A block's element sits in its array, on each axis, at the block index times the block size plus its own
coordinate.  The feature window moves by one tile of 10000 rows per point; the weight and the bias row
are staged whole; a result block is row `t / 5` of its array. -/

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 5 ∧ win0_3.index t (1 : Fin 3) = 0 ∧ win0_3.index t (2 : Fin 3) = 0
    ∧ win0_4.index t (0 : Fin 3) = t.val / 5 ∧ win0_4.index t (1 : Fin 3) = 0 ∧ win0_4.index t (2 : Fin 3) = 0 :=
  (by decide +kernel : ∀ t : Fin grid0.N, _)

/-- A grid point as a tile number. -/
def tileOf (t : Fin cfg0.N) : Fin 10 := ⟨t.val, lt_of_lt_of_eq t.isLt N_0⟩

/-- The three staged input blocks at point `t`, at their literal types. -/
abbrev xblk (c : Dev nD) (t : Fin cfg0.N) : Vec Ideal S10000x64 .f32 := iblk0 V c 0 t
abbrev wblk (c : Dev nD) (t : Fin cfg0.N) : Vec Ideal S64x64 .f32 := iblk0 V c 1 t
abbrev bblk (c : Dev nD) (t : Fin cfg0.N) : Vec Ideal S1x64 .f32 := iblk0 V c 2 t

/-- The feature block at point `t` is rows `10000 t …` of the features. -/
theorem xblk_apply (c : Dev nD) (t : Fin cfg0.N) (row : Fin 10000) (k : Fin 64) :
    xblk V c t (ix2 row k) = Xv V c (ix2 (rowOf10 (tileOf t) row) k) := by
  obtain ⟨e0, e1, -⟩ := idx_facts t
  show V c main_v59 (((cfg0.win 0).blk t).view.emb (ix2 row k)) = V c main_v59 (ix2 (rowOf10 (tileOf t) row) k)
  refine congrArg (V c main_v59) (funext fun a => Fin.ext ?_)
  match a with
  | ⟨0, _⟩ => show win0_0.index t (0 : Fin 2) * 10000 + 1 * row.val = t.val * 10000 + row.val; rw [e0]; omega
  | ⟨1, _⟩ => show win0_0.index t (1 : Fin 2) * 64 + 1 * k.val = k.val; rw [e1]; omega

/-- The weight block is the weight. -/
theorem wblk_apply (c : Dev nD) (t : Fin cfg0.N) (d k : Fin 64) :
    wblk V c t (ix2 d k) = Wv V c (ix2 d k) := by
  obtain ⟨-, -, e0, e1, -⟩ := idx_facts t
  show V c main_arg3 (((cfg0.win 1).blk t).view.emb (ix2 d k)) = V c main_arg3 (ix2 d k)
  refine congrArg (V c main_arg3) (funext fun a => Fin.ext ?_)
  match a with
  | ⟨0, _⟩ => show win0_1.index t (0 : Fin 2) * 64 + 1 * d.val = d.val; rw [e0]; omega
  | ⟨1, _⟩ => show win0_1.index t (1 : Fin 2) * 64 + 1 * k.val = k.val; rw [e1]; omega

/-- The bias block is the bias row. -/
theorem bblk_apply (c : Dev nD) (t : Fin cfg0.N) (u : Fin 1) (d : Fin 64) :
    bblk V c t (ix2 u d) = bv V c (ix2 u d) := by
  obtain ⟨-, -, -, -, e0, e1, -⟩ := idx_facts t
  show V c main_v60 (((cfg0.win 2).blk t).view.emb (ix2 u d)) = V c main_v60 (ix2 u d)
  refine congrArg (V c main_v60) (funext fun a => Fin.ext ?_)
  match a with
  | ⟨0, _⟩ => show win0_2.index t (0 : Fin 2) * 1 + 1 * u.val = u.val; rw [e0]; omega
  | ⟨1, _⟩ => show win0_2.index t (1 : Fin 2) * 64 + 1 * d.val = d.val; rw [e1]; omega

/-- So the tile's projection is the projection of the tile's nodes. -/
theorem hTile_blk (c : Dev nD) (t : Fin cfg0.N) (row : Fin 10000) (d : Fin 64) :
    hTile (xblk V c t) (wblk V c t) (bblk V c t) row d = hK V c (rowOf10 (tileOf t) row) d := by
  unfold hTile hK hOf
  refine congrArg₂ (· + ·) (Finset.sum_congr rfl fun k _ => ?_) (bblk_apply V c t 0 d)
  exact congrArg₂ (· * ·) (xblk_apply V c t row k) (wblk_apply V c t d k)

/-! ## The accumulation over a core's tiles

A core's run of five points opens with the zero block and adds one tile's column sums per point, so after
point `n` a block holds the sum over the tiles of `n`'s core up to `n` (the leading zero dropped:
`0 + x = x` over the extended reals). -/

/-- The sum of `T` over the tiles of point `n`'s core up to and including `n`. -/
def runSum (T : ℕ → EReal) (n : ℕ) : EReal := ∑ j ∈ Finset.range (n % 5 + 1), T (n - n % 5 + j)

theorem runSum_open (T : ℕ → EReal) (n : ℕ) (h0 : n % 5 = 0) : runSum T n = T n := by
  unfold runSum
  rw [h0, Finset.sum_range_succ, Finset.sum_range_zero, zero_add]
  rfl

theorem runSum_keep (T : ℕ → EReal) (n : ℕ) (h0 : ¬(n + 1) % 5 = 0) : runSum T (n + 1) = runSum T n + T (n + 1) := by
  unfold runSum
  have h1 : n % 5 + 1 = (n + 1) % 5 := by omega
  have h2 : n - n % 5 = n + 1 - (n + 1) % 5 := by omega
  have h3 : n + 1 - (n + 1) % 5 + (n + 1) % 5 = n + 1 := by omega
  rw [Finset.sum_range_succ, h3, h2, h1]

theorem runSum_last (T : ℕ → EReal) (q : ℕ) : runSum T (5 * q + 4) = ∑ j : Fin 5, T (5 * q + j.val) := by
  unfold runSum
  have h1 : (5 * q + 4) % 5 = 4 := by omega
  have h2 : 5 * q + 4 - 4 = 5 * q := by omega
  rw [h1, h2]
  exact Finset.sum_range _

/-- The column sums of the projection, and of its square, over tile `n` (zero past the grid). -/
def tsum (c : Dev nD) (d : Fin 64) (n : ℕ) : EReal :=
  if h : n < 10 then ∑ row : Fin 10000, hK V c (rowOf10 ⟨n, h⟩ row) d else 0
def tsq (c : Dev nD) (d : Fin 64) (n : ℕ) : EReal :=
  if h : n < 10 then ∑ row : Fin 10000, hK V c (rowOf10 ⟨n, h⟩ row) d * hK V c (rowOf10 ⟨n, h⟩ row) d else 0

/-- The opening point of a core's run leaves its tile's column sums in the first block. -/
theorem step3_open (c : Dev nD) (t : Fin cfg0.N) (h0 : t.val % 5 = 0) (d : Fin 64) :
    ((outsAt0 V c t.val t.isLt).1 : Vec Ideal S1x1x64 .f32) (ix3 (0 : Fin 1) (0 : Fin 1) d) = tsum V c d t.val := by
  have h10 : t.val < 10 := lt_of_lt_of_eq t.isLt N_0
  rw [outsAt0_A V c t h0]
  dsimp only
  refine (congrFun (sum_open c (grid0.coords t) (ms0_0 t) (hs0_0 t) (ms0_1 t) (hs0_1 t) (ms0_2 t) (hs0_2 t) (ms0_3 t) (hs0_3 t)
    (ms0_4 t) (hs0_4 t) ((hcond0_0 t).mpr h0) (xblk V c t) (wblk V c t) (bblk V c t)) (ix3 (0 : Fin 1) (0 : Fin 1) d)).trans ?_
  refine (pay4_apply (xblk V c t) (wblk V c t) (bblk V c t) (k0_pay1 (F := Ideal)) 0 0 d).trans ?_
  rw [pay1_apply, zero_add]
  unfold tsum
  rw [dif_pos h10]
  exact Finset.sum_congr rfl fun row _ => hTile_blk V c t row d

/-- A later point of a core's run adds its tile's column sums to the first block. -/
theorem step3_keep (c : Dev nD) (n : ℕ) (h : n + 1 < cfg0.N) (h0 : ¬(n + 1) % 5 = 0) (d : Fin 64) :
    ((outsAt0 V c (n + 1) h).1 : Vec Ideal S1x1x64 .f32) (ix3 (0 : Fin 1) (0 : Fin 1) d)
      = ((outsAt0 V c n (Nat.lt_of_succ_lt h)).1 : Vec Ideal S1x1x64 .f32) (ix3 (0 : Fin 1) (0 : Fin 1) d) + tsum V c d (n + 1) := by
  have hN : cfg0.N = 10 := N_0
  have h10 : n + 1 < 10 := lt_of_lt_of_eq h hN
  rw [outsAt0_B V c ⟨n + 1, h⟩ h0]
  dsimp only
  refine (congrFun (sum_keep c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun hh => h0 ((hcond0_0 ⟨n + 1, h⟩).mp hh)) (xblk V c ⟨n + 1, h⟩) (wblk V c ⟨n + 1, h⟩) (bblk V c ⟨n + 1, h⟩)
    (outsAt0 V c n (Nat.lt_of_succ_lt h)).1 (outsAt0 V c n (Nat.lt_of_succ_lt h)).2) (ix3 (0 : Fin 1) (0 : Fin 1) d)).trans ?_
  refine (pay4_apply (xblk V c ⟨n + 1, h⟩) (wblk V c ⟨n + 1, h⟩) (bblk V c ⟨n + 1, h⟩) (outsAt0 V c n (Nat.lt_of_succ_lt h)).1 0 0 d).trans ?_
  refine congrArg₂ (· + ·) rfl ?_
  unfold tsum
  rw [dif_pos h10]
  exact Finset.sum_congr rfl fun row _ => hTile_blk V c ⟨n + 1, h⟩ row d

/-- After point `n` the first block holds the column sums over the tiles of `n`'s core up to `n`. -/
theorem acc3 (c : Dev nD) (d : Fin 64) : ∀ (n : ℕ) (h : n < cfg0.N),
    ((outsAt0 V c n h).1 : Vec Ideal S1x1x64 .f32) (ix3 (0 : Fin 1) (0 : Fin 1) d) = runSum (tsum V c d) n
  | 0, h => (step3_open V c ⟨0, h⟩ rfl d).trans (runSum_open _ 0 rfl).symm
  | n + 1, h => by
    by_cases h0 : (n + 1) % 5 = 0
    · exact (step3_open V c ⟨n + 1, h⟩ h0 d).trans (runSum_open _ (n + 1) h0).symm
    · rw [runSum_keep _ n h0]
      exact (step3_keep V c n h h0 d).trans (congrArg (· + tsum V c d (n + 1)) (acc3 c d n (Nat.lt_of_succ_lt h)))

theorem runSum_tsum_last (c : Dev nD) (d : Fin 64) (cc : Fin 2) :
    runSum (tsum V c d) (5 * cc.val + 4) = ∑ j : Fin 5, ∑ row : Fin 10000, hK V c (rowOf cc j row) d := by
  rw [runSum_last]
  refine Finset.sum_congr rfl fun j _ => ?_
  have h10 : 5 * cc.val + j.val < 10 := by have := cc.isLt; have := j.isLt; omega
  unfold tsum
  rw [dif_pos h10]
  rfl

/-! ## The write-backs and the result arrays

A result block is written back after the last point of a core's run (`t % 5 = 4`), into row `t / 5` of its
array; the two write-backs cover the two rows. -/

/-- What the first result array ends holding. -/
def G3 (c : Dev nD) : S2x1x64.Idx → EReal := fun i =>
  ∑ j : Fin 5, ∑ row : Fin 10000, hK V c (rowOf ⟨(i 0).val, (i 0).isLt⟩ j row) ⟨(i 2).val, (i 2).isLt⟩

theorem flushed3_eq (c : Dev nD) (t : Fin cfg0.N) (hf : (cfg0.win 3).flush t = true) :
    (dat0 V c).flushed 3 t = ((cfg0.win 3).blk t).view.read (Elt Ideal) (G3 V c) := by
  have h10 : t.val < 10 := lt_of_lt_of_eq t.isLt N_0
  have h4 : t.val % 5 = 4 := (flush0_3 t).mp hf
  have hcc : t.val / 5 < 2 := by omega
  obtain ⟨-, -, -, -, -, -, e0, e1, e2, -⟩ := idx_facts t
  show (cfg0.win 3).cut (grid0.coords t) ((dat0 V c).after 3 t) = _
  rw [after0_3]
  funext j
  obtain ⟨u, v, d, rfl⟩ : ∃ (u v : Fin 1) (d : Fin 64), j = ix3 u v d := ⟨j 0, j 1, j 2, eq_ix3 j⟩
  obtain rfl : u = 0 := Subsingleton.elim _ _
  obtain rfl : v = 0 := Subsingleton.elim _ _
  have hemb : ((cfg0.win 3).blk t).view.emb (ix3 (0 : Fin 1) (0 : Fin 1) d) = ix3 (⟨t.val / 5, hcc⟩ : Fin 2) (0 : Fin 1) d := by
    funext a; apply Fin.ext
    match a with
    | ⟨0, _⟩ => show win0_3.index t (0 : Fin 3) * 1 + 1 * 0 = t.val / 5; rw [e0]; omega
    | ⟨1, _⟩ => show win0_3.index t (1 : Fin 3) * 1 + 1 * 0 = 0; rw [e1]
    | ⟨2, _⟩ => show win0_3.index t (2 : Fin 3) * 64 + 1 * d.val = d.val; rw [e2]; omega
  show ((outsAt0 V c t.val t.isLt).1 : Vec Ideal S1x1x64 .f32) (ix3 (0 : Fin 1) (0 : Fin 1) d)
    = G3 V c (((cfg0.win 3).blk t).view.emb (ix3 (0 : Fin 1) (0 : Fin 1) d))
  rw [hemb, acc3 V c d t.val t.isLt]
  have ht : t.val = 5 * (⟨t.val / 5, hcc⟩ : Fin 2).val + 4 := by show t.val = 5 * (t.val / 5) + 4; omega
  exact (congrArg (runSum (tsum V c d)) ht).trans (runSum_tsum_last V c d ⟨t.val / 5, hcc⟩)

/-- An index of the array is in point `t`'s block iff each coordinate is in the block's range on its axis. -/
theorem mem_blk3 (t : Fin cfg0.N) (i : S2x1x64.Idx) :
    i ∈ ((cfg0.win 3).blk t).view.set ↔ ∀ a : Fin 3, win0_3.index t a * S1x1x64.size a ≤ (i a).val
      ∧ (i a).val < win0_3.index t a * S1x1x64.size a + S1x1x64.size a := by
  show i ∈ ((View.whole main_v63_0).slice (win0_3.rect t)).set ↔ _
  rw [View.set_slice_whole, Rect.mem_set_unit]
  exact Iff.rfl

/-- Row `cc` of the first result is covered by the write-back after point `5 cc + 4`. -/
theorem cover3 (i : S2x1x64.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 64 := (i 2).isLt
  have hN : cfg0.N = 10 := N_0
  have ht : 5 * (i 0).val + 4 < cfg0.N := by rw [hN]; omega
  obtain ⟨-, -, -, -, -, -, e0, e1, e2, -⟩ := idx_facts ⟨5 * (i 0).val + 4, ht⟩
  dsimp only at e0
  refine ⟨⟨5 * (i 0).val + 4, ht⟩, (flush0_3 _).mpr (by show (5 * (i 0).val + 4) % 5 = 4; omega), ?_⟩
  rw [mem_blk3]
  intro a
  match a with
  | ⟨0, _⟩ =>
    show win0_3.index ⟨5 * (i 0).val + 4, ht⟩ (0 : Fin 3) * 1 ≤ (i 0).val
      ∧ (i 0).val < win0_3.index ⟨5 * (i 0).val + 4, ht⟩ (0 : Fin 3) * 1 + 1
    rw [e0]; omega
  | ⟨1, _⟩ =>
    show win0_3.index ⟨5 * (i 0).val + 4, ht⟩ (1 : Fin 3) * 1 ≤ (i 1).val
      ∧ (i 1).val < win0_3.index ⟨5 * (i 0).val + 4, ht⟩ (1 : Fin 3) * 1 + 1
    rw [e1]; omega
  | ⟨2, _⟩ =>
    show win0_3.index ⟨5 * (i 0).val + 4, ht⟩ (2 : Fin 3) * 64 ≤ (i 2).val
      ∧ (i 2).val < win0_3.index ⟨5 * (i 0).val + 4, ht⟩ (2 : Fin 3) * 64 + 64
    rw [e2]; omega

/-- The first result array after the run. -/
theorem final3 (c : Dev nD) : (dat0 V c).arrAt 3 cfg0.N = G3 V c :=
  (dat0 V c).arrAt_eq_of_cover 3 (G3 V c) (flushed3_eq V c) cover3

/-- Core `cc`'s row of the first result: the sum of `h · d` over the core's 5 × 10000 nodes. -/
theorem sums (c : Dev nD) (cc : Fin 2) (d : Fin 64) :
    ((dat0 V c).arrAt 3 cfg0.N : S2x1x64.Idx → EReal) (ix3 cc (0 : Fin 1) d)
      = ∑ j : Fin 5, ∑ row : Fin 10000, hK V c (rowOf cc j row) d := by
  rw [final3 V c]
  rfl

/-! ## The second result: the same road with the squared projection -/

/-- The opening point of a core's run leaves its tile's column sums of squares in the second block. -/
theorem step4_open (c : Dev nD) (t : Fin cfg0.N) (h0 : t.val % 5 = 0) (d : Fin 64) :
    ((outsAt0 V c t.val t.isLt).2 : Vec Ideal S1x1x64 .f32) (ix3 (0 : Fin 1) (0 : Fin 1) d) = tsq V c d t.val := by
  have h10 : t.val < 10 := lt_of_lt_of_eq t.isLt N_0
  rw [outsAt0_A V c t h0]
  dsimp only
  refine (congrFun (sq_open c (grid0.coords t) (ms0_0 t) (hs0_0 t) (ms0_1 t) (hs0_1 t) (ms0_2 t) (hs0_2 t) (ms0_3 t) (hs0_3 t)
    (ms0_4 t) (hs0_4 t) ((hcond0_0 t).mpr h0) (xblk V c t) (wblk V c t) (bblk V c t)) (ix3 (0 : Fin 1) (0 : Fin 1) d)).trans ?_
  refine (pay5_apply (xblk V c t) (wblk V c t) (bblk V c t) (k0_pay2 (F := Ideal)) 0 0 d).trans ?_
  rw [pay2_apply, zero_add]
  unfold tsq
  rw [dif_pos h10]
  exact Finset.sum_congr rfl fun row _ => congrArg₂ (· * ·) (hTile_blk V c t row d) (hTile_blk V c t row d)

/-- A later point of a core's run adds its tile's column sums of squares to the second block. -/
theorem step4_keep (c : Dev nD) (n : ℕ) (h : n + 1 < cfg0.N) (h0 : ¬(n + 1) % 5 = 0) (d : Fin 64) :
    ((outsAt0 V c (n + 1) h).2 : Vec Ideal S1x1x64 .f32) (ix3 (0 : Fin 1) (0 : Fin 1) d)
      = ((outsAt0 V c n (Nat.lt_of_succ_lt h)).2 : Vec Ideal S1x1x64 .f32) (ix3 (0 : Fin 1) (0 : Fin 1) d) + tsq V c d (n + 1) := by
  have hN : cfg0.N = 10 := N_0
  have h10 : n + 1 < 10 := lt_of_lt_of_eq h hN
  rw [outsAt0_B V c ⟨n + 1, h⟩ h0]
  dsimp only
  refine (congrFun (sq_keep c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
    (fun hh => h0 ((hcond0_0 ⟨n + 1, h⟩).mp hh)) (xblk V c ⟨n + 1, h⟩) (wblk V c ⟨n + 1, h⟩) (bblk V c ⟨n + 1, h⟩)
    (outsAt0 V c n (Nat.lt_of_succ_lt h)).1 (outsAt0 V c n (Nat.lt_of_succ_lt h)).2) (ix3 (0 : Fin 1) (0 : Fin 1) d)).trans ?_
  refine (pay5_apply (xblk V c ⟨n + 1, h⟩) (wblk V c ⟨n + 1, h⟩) (bblk V c ⟨n + 1, h⟩) (outsAt0 V c n (Nat.lt_of_succ_lt h)).2 0 0 d).trans ?_
  refine congrArg₂ (· + ·) rfl ?_
  unfold tsq
  rw [dif_pos h10]
  exact Finset.sum_congr rfl fun row _ =>
    congrArg₂ (· * ·) (hTile_blk V c ⟨n + 1, h⟩ row d) (hTile_blk V c ⟨n + 1, h⟩ row d)

/-- After point `n` the second block holds the column sums of squares over the tiles of `n`'s core up to `n`. -/
theorem acc4 (c : Dev nD) (d : Fin 64) : ∀ (n : ℕ) (h : n < cfg0.N),
    ((outsAt0 V c n h).2 : Vec Ideal S1x1x64 .f32) (ix3 (0 : Fin 1) (0 : Fin 1) d) = runSum (tsq V c d) n
  | 0, h => (step4_open V c ⟨0, h⟩ rfl d).trans (runSum_open _ 0 rfl).symm
  | n + 1, h => by
    by_cases h0 : (n + 1) % 5 = 0
    · exact (step4_open V c ⟨n + 1, h⟩ h0 d).trans (runSum_open _ (n + 1) h0).symm
    · rw [runSum_keep _ n h0]
      exact (step4_keep V c n h h0 d).trans (congrArg (· + tsq V c d (n + 1)) (acc4 c d n (Nat.lt_of_succ_lt h)))

theorem runSum_tsq_last (c : Dev nD) (d : Fin 64) (cc : Fin 2) :
    runSum (tsq V c d) (5 * cc.val + 4)
      = ∑ j : Fin 5, ∑ row : Fin 10000, hK V c (rowOf cc j row) d * hK V c (rowOf cc j row) d := by
  rw [runSum_last]
  refine Finset.sum_congr rfl fun j _ => ?_
  have h10 : 5 * cc.val + j.val < 10 := by have := cc.isLt; have := j.isLt; omega
  unfold tsq
  rw [dif_pos h10]
  rfl

/-- What the second result array ends holding. -/
def G4 (c : Dev nD) : S2x1x64.Idx → EReal := fun i =>
  ∑ j : Fin 5, ∑ row : Fin 10000, hK V c (rowOf ⟨(i 0).val, (i 0).isLt⟩ j row) ⟨(i 2).val, (i 2).isLt⟩
    * hK V c (rowOf ⟨(i 0).val, (i 0).isLt⟩ j row) ⟨(i 2).val, (i 2).isLt⟩

theorem flushed4_eq (c : Dev nD) (t : Fin cfg0.N) (hf : (cfg0.win 4).flush t = true) :
    (dat0 V c).flushed 4 t = ((cfg0.win 4).blk t).view.read (Elt Ideal) (G4 V c) := by
  have h10 : t.val < 10 := lt_of_lt_of_eq t.isLt N_0
  have h4 : t.val % 5 = 4 := (flush0_4 t).mp hf
  have hcc : t.val / 5 < 2 := by omega
  obtain ⟨-, -, -, -, -, -, -, -, -, e0, e1, e2⟩ := idx_facts t
  show (cfg0.win 4).cut (grid0.coords t) ((dat0 V c).after 4 t) = _
  rw [after0_4]
  funext j
  obtain ⟨u, v, d, rfl⟩ : ∃ (u v : Fin 1) (d : Fin 64), j = ix3 u v d := ⟨j 0, j 1, j 2, eq_ix3 j⟩
  obtain rfl : u = 0 := Subsingleton.elim _ _
  obtain rfl : v = 0 := Subsingleton.elim _ _
  have hemb : ((cfg0.win 4).blk t).view.emb (ix3 (0 : Fin 1) (0 : Fin 1) d) = ix3 (⟨t.val / 5, hcc⟩ : Fin 2) (0 : Fin 1) d := by
    funext a; apply Fin.ext
    match a with
    | ⟨0, _⟩ => show win0_4.index t (0 : Fin 3) * 1 + 1 * 0 = t.val / 5; rw [e0]; omega
    | ⟨1, _⟩ => show win0_4.index t (1 : Fin 3) * 1 + 1 * 0 = 0; rw [e1]
    | ⟨2, _⟩ => show win0_4.index t (2 : Fin 3) * 64 + 1 * d.val = d.val; rw [e2]; omega
  show ((outsAt0 V c t.val t.isLt).2 : Vec Ideal S1x1x64 .f32) (ix3 (0 : Fin 1) (0 : Fin 1) d)
    = G4 V c (((cfg0.win 4).blk t).view.emb (ix3 (0 : Fin 1) (0 : Fin 1) d))
  rw [hemb, acc4 V c d t.val t.isLt]
  have ht : t.val = 5 * (⟨t.val / 5, hcc⟩ : Fin 2).val + 4 := by show t.val = 5 * (t.val / 5) + 4; omega
  exact (congrArg (runSum (tsq V c d)) ht).trans (runSum_tsq_last V c d ⟨t.val / 5, hcc⟩)

theorem mem_blk4 (t : Fin cfg0.N) (i : S2x1x64.Idx) :
    i ∈ ((cfg0.win 4).blk t).view.set ↔ ∀ a : Fin 3, win0_4.index t a * S1x1x64.size a ≤ (i a).val
      ∧ (i a).val < win0_4.index t a * S1x1x64.size a + S1x1x64.size a := by
  show i ∈ ((View.whole main_v63_1).slice (win0_4.rect t)).set ↔ _
  rw [View.set_slice_whole, Rect.mem_set_unit]
  exact Iff.rfl

/-- Row `cc` of the second result is covered by the write-back after point `5 cc + 4`. -/
theorem cover4 (i : S2x1x64.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 64 := (i 2).isLt
  have hN : cfg0.N = 10 := N_0
  have ht : 5 * (i 0).val + 4 < cfg0.N := by rw [hN]; omega
  obtain ⟨-, -, -, -, -, -, -, -, -, e0, e1, e2⟩ := idx_facts ⟨5 * (i 0).val + 4, ht⟩
  dsimp only at e0
  refine ⟨⟨5 * (i 0).val + 4, ht⟩, (flush0_4 _).mpr (by show (5 * (i 0).val + 4) % 5 = 4; omega), ?_⟩
  rw [mem_blk4]
  intro a
  match a with
  | ⟨0, _⟩ =>
    show win0_4.index ⟨5 * (i 0).val + 4, ht⟩ (0 : Fin 3) * 1 ≤ (i 0).val
      ∧ (i 0).val < win0_4.index ⟨5 * (i 0).val + 4, ht⟩ (0 : Fin 3) * 1 + 1
    rw [e0]; omega
  | ⟨1, _⟩ =>
    show win0_4.index ⟨5 * (i 0).val + 4, ht⟩ (1 : Fin 3) * 1 ≤ (i 1).val
      ∧ (i 1).val < win0_4.index ⟨5 * (i 0).val + 4, ht⟩ (1 : Fin 3) * 1 + 1
    rw [e1]; omega
  | ⟨2, _⟩ =>
    show win0_4.index ⟨5 * (i 0).val + 4, ht⟩ (2 : Fin 3) * 64 ≤ (i 2).val
      ∧ (i 2).val < win0_4.index ⟨5 * (i 0).val + 4, ht⟩ (2 : Fin 3) * 64 + 64
    rw [e2]; omega

/-- The second result array after the run. -/
theorem final4 (c : Dev nD) : (dat0 V c).arrAt 4 cfg0.N = G4 V c :=
  (dat0 V c).arrAt_eq_of_cover 4 (G4 V c) (flushed4_eq V c) cover4

/-- Core `cc`'s row of the second result: the sum of `(h · d)²` over the core's nodes. -/
theorem sumsq (c : Dev nD) (cc : Fin 2) (d : Fin 64) :
    ((dat0 V c).arrAt 4 cfg0.N : S2x1x64.Idx → EReal) (ix3 cc (0 : Fin 1) d)
      = ∑ j : Fin 5, ∑ row : Fin 10000, hK V c (rowOf cc j row) d * hK V c (rowOf cc j row) d := by
  rw [final4 V c]
  rfl

end Cert.KernelIdeal.R0

end
-- ==== Proof.Tile.lean ====
/-
  One tile of the projection, entry by entry: for a tile `x` of 10000 nodes, the weight `w` and the
  bias row `b`, the kernels' `x · wᵀ + b` at (row, d) is `(∑ k, x row k * w d k) + b 0 d`.
-/
import proofs.«420227_j26465588478209_3_alg».proof.Proof.Gen.KernelIdeal
import Idealize.ShloMosaic.Lib.ValueIdx
import Idealize.ShloMosaic.Lib.Pipeline.Value
import Idealize.ShloMosaic.PureOps.Ideal.Laws

noncomputable section

namespace Cert.KernelIdeal.Tile

open Idealize.ShloMosaic Idealize.ShloMosaic.ValueIdx
open Cert.KernelIdeal
open scoped BigOperators

open Cert.KernelIdeal.Gen

/-- The contraction reads the tile along its row … -/
theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- … and the transposed weight down its column. -/
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The transposed weight at (k, d) is the weight at (d, k). -/
theorem wT_apply (w : Vec Ideal S64x64 .f32) (k d : Fin 64) :
    transpose S64x64 [1, 0] w transposes_S64x64_p1_0_S64x64 (ix2 k d) = w (ix2 d k) :=
  transpose_apply [1, 0] w transposes_S64x64_p1_0_S64x64 (ix2 k d) (ix2 d k) (fun b => match b with
    | ⟨0, _⟩ => rfl
    | ⟨1, _⟩ => rfl)

/-- The product of a tile with the transposed weight, into a zero accumulator, at (row, d). -/
theorem matmul_apply (x : Vec Ideal S10000x64 .f32) (w : Vec Ideal S64x64 .f32) (row : Fin 10000) (d : Fin 64) :
    matmul (F := Ideal) (φ₁ := .f32) (φ₂ := .f32) dot_S10000x64_S64x64_S10000x64_1_0_0_1_n_n (some .fp32) x
        (transpose S64x64 [1, 0] w transposes_S64x64_p1_0_S64x64) (constant (F := Ideal) S10000x64 .f32 0x00000000#32) (ix2 row d)
      = ∑ k : Fin 64, x (ix2 row k) * w (ix2 d k) := by
  show FloatOps.matmul _ _ _ _ _ _ = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 row d) ((ValueIdx.contrEquiv1 dot_S10000x64_S64x64_S10000x64_1_0_0_1_n_n 64 rfl rfl).symm k) = ix2 row k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 row d) ((ValueIdx.contrEquiv1 dot_S10000x64_S64x64_S10000x64_1_0_0_1_n_n 64 rfl rfl).symm k) = ix2 k d := funext fun a => Fin.ext (by
    match a with
    | ⟨0, _⟩ => exact (rhs_0 _ _).trans hk
    | ⟨1, _⟩ => exact rhs_1 _ _)
  rw [el, er, wT_apply]

/-- One tile of the projection with bias, as the kernels spell it, at (row, d). -/
theorem tile_apply (x : Vec Ideal S10000x64 .f32) (w : Vec Ideal S64x64 .f32) (b : Vec Ideal S1x64 .f32) (row : Fin 10000) (d : Fin 64) :
    addf (F := Ideal)
        (matmul (F := Ideal) (φ₁ := .f32) (φ₂ := .f32) dot_S10000x64_S64x64_S10000x64_1_0_0_1_n_n (some .fp32) (shapeCast S10000x64 x shapeCasts_S10000x64_S10000x64)
          (transpose S64x64 [1, 0] w transposes_S64x64_p1_0_S64x64) (constant (F := Ideal) S10000x64 .f32 0x00000000#32))
        (broadcastTo S10000x64 (shapeCast S1x64 b shapeCasts_S1x64_S1x64) broadcasts_S1x64_S10000x64) (ix2 row d)
      = (∑ k : Fin 64, x (ix2 row k) * w (ix2 d k)) + b (ix2 (0 : Fin 1) d) := by
  rw [addf_apply, shapeCast_self, shapeCast_self, matmul_apply]
  congr 1
  exact broadcastTo_apply b broadcasts_S1x64_S10000x64 (ix2 row d) (ix2 (0 : Fin 1) d) (fun a => by
    match a with
    | ⟨0, _⟩ => rfl
    | ⟨1, _⟩ => rfl)

end Cert.KernelIdeal.Tile

end
-- ==== Proof.Region1.lean ====
/-
  The second kernel (10 tiles of 10000 nodes): on each tile it recomputes the projection
  `h = x · wᵀ + b`, normalises it with the feature's mean and variance (two [1,64] rows it is handed),
  scales, shifts, charges the neuron by half and writes the spike.  After the run its result array
  holds, at node `r` and feature `d`, the kernel's spike of `h r d`.
-/
import proofs.«420227_j26465588478209_3_alg».proof.Proof.Gen.KernelIdeal.Frame
import proofs.«420227_j26465588478209_3_alg».proof.Proof.Spec
import proofs.«420227_j26465588478209_3_alg».proof.Proof.Tile
import Idealize.ShloMosaic.Lib.ValueIdx
import Idealize.ShloMosaic.Lib.Pipeline.Value
import Idealize.ShloMosaic.PureOps.Ideal.Laws

set_option maxRecDepth 16384

noncomputable section

namespace Cert.KernelIdeal.R1

open Idealize.ShloMosaic Idealize.ShloMosaic.TcCoe Idealize.ShloMosaic.ValueIdx Idealize.SL.Sem
open Cert.KernelIdeal Cert.KernelIdeal.Gen Cert.Spec
open scoped BigOperators

/-- The reciprocal square root, entry by entry. -/
theorem rsqrt_apply {s : Shape} {φ : FTy} (x : FVec Ideal s φ) (i : s.Idx) : rsqrt x i = Ideal.rsqrt (x i) := rfl

/-- A [1,64] row spread over the 10000 rows of a tile. -/
theorem row_apply (b : Vec Ideal S1x64 .f32) (row : Fin 10000) (d : Fin 64) :
    broadcastTo S10000x64 b broadcasts_S1x64_S10000x64 (ix2 row d) = b (ix2 (0 : Fin 1) d) :=
  broadcastTo_apply b broadcasts_S1x64_S10000x64 (ix2 row d) (ix2 (0 : Fin 1) d) (fun a => by
    match a with
    | ⟨0, _⟩ => rfl
    | ⟨1, _⟩ => rfl)

/-- The body's one store, entry by entry: the spike of the tile's projection at (row, d). -/
theorem pay_apply (x0 : Vec Ideal S10000x64 .f32) (x1 : Vec Ideal S64x64 .f32) (x2 mean var gam bet : Vec Ideal S1x64 .f32)
    (row : Fin 10000) (d : Fin 64) :
    k1_pay1 (F := Ideal) x0 x1 x2 var mean gam bet (ix2 row d)
      = spikeKer ((∑ k : Fin 64, x0 (ix2 row k) * x1 (ix2 d k)) + x2 (ix2 (0 : Fin 1) d))
          (mean (ix2 (0 : Fin 1) d)) (var (ix2 (0 : Fin 1) d)) (gam (ix2 (0 : Fin 1) d)) (bet (ix2 (0 : Fin 1) d)) := by
  unfold k1_pay1 spikeKer
  simp only [sitofp_apply, extui_apply, cmpf_apply, addf_apply, mulf_apply, subf_apply, broadcast_apply, shapeCast_self]
  rw [Tile.matmul_apply x0 x1 row d, row_apply x2 row d, row_apply mean row d, row_apply gam row d, row_apply bet row d,
    row_apply _ row d, rsqrt_apply, addf_apply, broadcast_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The arrays the second kernel is handed, as it finds them. -/
abbrev Xv (c : Dev nD) : S100000x64.Idx → EReal := V c main_v59
abbrev Wv (c : Dev nD) : S64x64.Idx → EReal := V c main_arg3
abbrev bv (c : Dev nD) : S1x64.Idx → EReal := V c main_v60
abbrev meanv (c : Dev nD) : S1x64.Idx → EReal := V c main_v67
abbrev varv (c : Dev nD) : S1x64.Idx → EReal := V c main_v73
abbrev gamv (c : Dev nD) : S1x64.Idx → EReal := V c main_v61
abbrev betv (c : Dev nD) : S1x64.Idx → EReal := V c main_v62

/-- The spike at node `r`, feature `d`, from what the kernel is handed. -/
def spikeAt (c : Dev nD) (r : Fin 100000) (d : Fin 64) : EReal :=
  spikeKer (hOf (fun r k => Xv V c (ix2 r k)) (fun d k => Wv V c (ix2 d k)) (fun d => bv V c (ix2 (0 : Fin 1) d)) r d)
    (meanv V c (ix2 (0 : Fin 1) d)) (varv V c (ix2 (0 : Fin 1) d)) (gamv V c (ix2 (0 : Fin 1) d)) (betv V c (ix2 (0 : Fin 1) d))

/-- The whole result array. -/
def G (c : Dev nD) : S100000x64.Idx → EReal := fun i => spikeAt V c ⟨(i 0).val, (i 0).isLt⟩ ⟨(i 1).val, (i 1).isLt⟩

/-- Where each window's block sits at tile `t`. -/
theorem idx_facts : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- What tile `t` writes back is its block of the whole result. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S10000x64) hz, View.ld_unit_zero (S := S64x64) hz, View.ld_unit_zero (S := S1x64) hz]
  funext j
  show k1_pay1 (F := Ideal) (iblk1 V c 0 t) (iblk1 V c 1 t) (iblk1 V c 2 t) (iblk1 V c 4 t) (iblk1 V c 3 t) (iblk1 V c 5 t) (iblk1 V c 6 t) j
    = G V c (((cfg1.win 7).blk t).view.emb j)
  obtain ⟨row, d, rfl⟩ : ∃ (row : Fin 10000) (d : Fin 64), j = ix2 row d := ⟨j 0, j 1, eq_ix2 j⟩
  refine (pay_apply (iblk1 V c 0 t) (iblk1 V c 1 t) (iblk1 V c 2 t) (iblk1 V c 3 t) (iblk1 V c 4 t) (iblk1 V c 5 t) (iblk1 V c 6 t) row d).trans ?_
  obtain ⟨e00, e01, e70, e71, e10, e11, e20, e21, e30, e31, e40, e41, e50, e51, e60, e61⟩ := idx_facts t
  have ht : t.val < 10 := (show cfg1.N = 10 from N_1) ▸ t.isLt
  have hrow : row.val < 10000 := row.isLt
  have hd : d.val < 64 := d.isLt
  have h7 : ((cfg1.win 7).blk t).view.emb (ix2 row d) = (ix2 (⟨t.val * 10000 + row.val, by omega⟩ : Fin 100000) d : S100000x64.Idx) := by
    funext a; apply Fin.ext
    match a with
    | ⟨0, _⟩ => show win1_7.index t (0 : Fin 2) * 10000 + 1 * row.val = t.val * 10000 + row.val; omega
    | ⟨1, _⟩ => show win1_7.index t (1 : Fin 2) * 64 + 1 * d.val = d.val; omega
  have b0 : ∀ k : Fin 64, (iblk1 V c 0 t : S10000x64.Idx → EReal) (ix2 row k) = Xv V c (ix2 (⟨t.val * 10000 + row.val, by omega⟩ : Fin 100000) k) := fun k => by
    show Xv V c (((cfg1.win 0).blk t).view.emb (ix2 row k)) = _
    refine congrArg (Xv V c) (funext fun a => Fin.ext ?_)
    match a with
    | ⟨0, _⟩ => show win1_0.index t (0 : Fin 2) * 10000 + 1 * row.val = t.val * 10000 + row.val; omega
    | ⟨1, _⟩ => show win1_0.index t (1 : Fin 2) * 64 + 1 * k.val = k.val; omega
  have b1 : ∀ k : Fin 64, (iblk1 V c 1 t : S64x64.Idx → EReal) (ix2 d k) = Wv V c (ix2 d k) := fun k => by
    show Wv V c (((cfg1.win 1).blk t).view.emb (ix2 d k)) = _
    refine congrArg (Wv V c) (funext fun a => Fin.ext ?_)
    match a with
    | ⟨0, _⟩ => show win1_1.index t (0 : Fin 2) * 64 + 1 * d.val = d.val; omega
    | ⟨1, _⟩ => show win1_1.index t (1 : Fin 2) * 64 + 1 * k.val = k.val; omega
  have b2 : (iblk1 V c 2 t : S1x64.Idx → EReal) (ix2 (0 : Fin 1) d) = bv V c (ix2 (0 : Fin 1) d) := by
    show bv V c (((cfg1.win 2).blk t).view.emb (ix2 (0 : Fin 1) d)) = _
    refine congrArg (bv V c) (funext fun a => Fin.ext ?_)
    match a with
    | ⟨0, _⟩ => show win1_2.index t (0 : Fin 2) * 1 + 1 * 0 = 0; omega
    | ⟨1, _⟩ => show win1_2.index t (1 : Fin 2) * 64 + 1 * d.val = d.val; omega
  have b3 : (iblk1 V c 3 t : S1x64.Idx → EReal) (ix2 (0 : Fin 1) d) = meanv V c (ix2 (0 : Fin 1) d) := by
    show meanv V c (((cfg1.win 3).blk t).view.emb (ix2 (0 : Fin 1) d)) = _
    refine congrArg (meanv V c) (funext fun a => Fin.ext ?_)
    match a with
    | ⟨0, _⟩ => show win1_3.index t (0 : Fin 2) * 1 + 1 * 0 = 0; omega
    | ⟨1, _⟩ => show win1_3.index t (1 : Fin 2) * 64 + 1 * d.val = d.val; omega
  have b4 : (iblk1 V c 4 t : S1x64.Idx → EReal) (ix2 (0 : Fin 1) d) = varv V c (ix2 (0 : Fin 1) d) := by
    show varv V c (((cfg1.win 4).blk t).view.emb (ix2 (0 : Fin 1) d)) = _
    refine congrArg (varv V c) (funext fun a => Fin.ext ?_)
    match a with
    | ⟨0, _⟩ => show win1_4.index t (0 : Fin 2) * 1 + 1 * 0 = 0; omega
    | ⟨1, _⟩ => show win1_4.index t (1 : Fin 2) * 64 + 1 * d.val = d.val; omega
  have b5 : (iblk1 V c 5 t : S1x64.Idx → EReal) (ix2 (0 : Fin 1) d) = gamv V c (ix2 (0 : Fin 1) d) := by
    show gamv V c (((cfg1.win 5).blk t).view.emb (ix2 (0 : Fin 1) d)) = _
    refine congrArg (gamv V c) (funext fun a => Fin.ext ?_)
    match a with
    | ⟨0, _⟩ => show win1_5.index t (0 : Fin 2) * 1 + 1 * 0 = 0; omega
    | ⟨1, _⟩ => show win1_5.index t (1 : Fin 2) * 64 + 1 * d.val = d.val; omega
  have b6 : (iblk1 V c 6 t : S1x64.Idx → EReal) (ix2 (0 : Fin 1) d) = betv V c (ix2 (0 : Fin 1) d) := by
    show betv V c (((cfg1.win 6).blk t).view.emb (ix2 (0 : Fin 1) d)) = _
    refine congrArg (betv V c) (funext fun a => Fin.ext ?_)
    match a with
    | ⟨0, _⟩ => show win1_6.index t (0 : Fin 2) * 1 + 1 * 0 = 0; omega
    | ⟨1, _⟩ => show win1_6.index t (1 : Fin 2) * 64 + 1 * d.val = d.val; omega
  rw [h7]
  show _ = spikeAt V c ⟨t.val * 10000 + row.val, _⟩ d
  unfold spikeAt hOf
  rw [b2, b3, b4, b5, b6, Finset.sum_congr rfl fun k _ => by rw [b0 k, b1 k]]

/-- An index of the result lies in tile `t`'s block iff each coordinate is in the block's range. -/
theorem mem_blk (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v74).slice (win1_7.rect t)).set ↔ _
  rw [View.set_slice_whole, Rect.mem_set_unit]
  exact Iff.rfl

/-- The ten tiles cover the result (node `r` lies in tile `r / 10000`), so after the run it is `G`. -/
theorem final (c : Dev nD) : (dat1 V c).arrAt 7 cfg1.N = G V c :=
  (dat1 V c).arrAt_eq_of_cover 7 (G V c) (fun t _ => flushed_eq V c t) fun i => by
    have hi0 : (i 0).val < 100000 := (i 0).isLt
    have hi1 : (i 1).val < 64 := (i 1).isLt
    have hq : (i 0).val / 10000 < cfg1.N := by rw [show cfg1.N = 10 from N_1]; omega
    refine ⟨⟨(i 0).val / 10000, hq⟩, flush1_7 _, ?_⟩
    rw [mem_blk]
    obtain ⟨-, -, e70, e71, -⟩ := idx_facts ⟨(i 0).val / 10000, hq⟩
    intro a
    match a with
    | ⟨0, _⟩ =>
      show win1_7.index ⟨(i 0).val / 10000, hq⟩ (0 : Fin 2) * 10000 ≤ (i 0).val ∧ (i 0).val < win1_7.index ⟨(i 0).val / 10000, hq⟩ (0 : Fin 2) * 10000 + 10000
      rw [e70]; dsimp only; omega
    | ⟨1, _⟩ =>
      show win1_7.index ⟨(i 0).val / 10000, hq⟩ (1 : Fin 2) * 64 ≤ (i 1).val ∧ (i 1).val < win1_7.index ⟨(i 0).val / 10000, hq⟩ (1 : Fin 2) * 64 + 64
      rw [e71]; omega

/-- The result at node `r` and feature `d`. -/
theorem out_value (c : Dev nD) (r : Fin 100000) (d : Fin 64) :
    ((dat1 V c).arrAt 7 cfg1.N : S100000x64.Idx → EReal) (ix2 r d) = spikeAt V c r d := by
  rw [final]; rfl

end Cert.KernelIdeal.R1

end
-- ==== Proof.LibFinite.lean ====
/-
  Finiteness at the extended-real instance.

  At the instance where a float is an extended real and every float operation is the exact
  textbook one, a value is FINITE when it is (the image of) a real number.  This module defines
  that predicate on single values (`IsReal`) and on whole arrays (`AllReal`), the companion
  predicate "every entry is zero" (`AllZero`), and proves one preservation lemma per operation:
  elementwise arithmetic, selection, changes of format, constants, integer-to-float conversion,
  every re-indexing (broadcasts, reshapes, slices, padding, gather), scatter (accumulating and
  overwriting), a four-operand sort, and the two contractions (a finite sum of products of reals
  is a real).  Two composite facts close the module: the normaliser
  `where (deg > 0) (rsqrt deg) 0` is finite for EVERY `deg`, and `log_softmax` over an axis of
  extent one is identically zero on finite input.

  Every lemma has its hypotheses and its conclusion in the form `AllReal _` / `IsReal _` /
  `AllZero _`, so that it can be used by `apply`.
-/
import Idealize.ShloMosaic.PureOps
import Idealize.ShloMosaic.PureOps.Ideal
import Idealize.ShloMosaic.PureOps.Ideal.Laws
import Idealize.ShloMosaic.PureOps.Reduce
import Mathlib.Data.EReal.Operations
import Mathlib.Data.EReal.Inv
import Mathlib.Analysis.SpecialFunctions.Log.Basic
import Mathlib.Analysis.SpecialFunctions.Exp

noncomputable section

namespace Cert.LibFinite

open Idealize.ShloMosaic
open scoped BigOperators

/-! ## The predicates -/

/-- An extended real that is a real number. -/
def IsReal (x : EReal) : Prop := ∃ r : ℝ, x = (r : EReal)

/-- An array of extended reals all of whose entries are real numbers. -/
def AllReal {ι : Type} (v : ι → EReal) : Prop := ∀ i, IsReal (v i)

/-- An array of extended reals all of whose entries are zero. -/
def AllZero {ι : Type} (v : ι → EReal) : Prop := ∀ i, v i = 0

/-! ## Single values -/

theorem isReal_coe (r : ℝ) : IsReal (r : EReal) := ⟨r, rfl⟩
theorem isReal_zero : IsReal 0 := ⟨0, EReal.coe_zero.symm⟩
theorem isReal_one : IsReal 1 := ⟨1, EReal.coe_one.symm⟩
theorem IsReal.ne_top {x : EReal} (h : IsReal x) : x ≠ ⊤ := by
  obtain ⟨r, rfl⟩ := h; exact EReal.coe_ne_top r
theorem IsReal.ne_bot {x : EReal} (h : IsReal x) : x ≠ ⊥ := by
  obtain ⟨r, rfl⟩ := h; exact EReal.coe_ne_bot r
theorem isReal_iff {x : EReal} : IsReal x ↔ x ≠ ⊥ ∧ x ≠ ⊤ := by
  constructor
  · intro h; exact ⟨h.ne_bot, h.ne_top⟩
  · rintro ⟨hb, ht⟩; exact ⟨x.toReal, (EReal.coe_toReal ht hb).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
/-- A finite sum of real numbers is a real number. -/
theorem isReal_sum {κ : Type} (t : Finset κ) {f : κ → EReal} (hf : ∀ k ∈ t, IsReal (f k)) : IsReal (∑ k ∈ t, f k) := by
  classical
  induction t using Finset.induction_on with
  | empty => rw [Finset.sum_empty]; exact isReal_zero
  | insert a t ha ih =>
    rw [Finset.sum_insert ha]
    exact (hf a (Finset.mem_insert_self a t)).add (ih fun k hk => hf k (Finset.mem_insert_of_mem hk))

theorem AllZero.allReal {ι : Type} {v : ι → EReal} (h : AllZero v) : AllReal v := fun i => by rw [h i]; exact isReal_zero

/-! ## Elementwise operations -/

section Elementwise
variable {s : Shape} {φ : FTy}

theorem allReal_addf {x y : FVec Ideal s φ} (hx : AllReal x) (hy : AllReal y) : AllReal (addf (F := Ideal) x y) := fun i => (hx i).add (hy i)
theorem allReal_subf {x y : FVec Ideal s φ} (hx : AllReal x) (hy : AllReal y) : AllReal (subf (F := Ideal) x y) := fun i => (hx i).sub (hy i)
theorem allReal_mulf {x y : FVec Ideal s φ} (hx : AllReal x) (hy : AllReal y) : AllReal (mulf (F := Ideal) x y) := fun i => (hx i).mul (hy i)
theorem allReal_maximumf {x y : FVec Ideal s φ} (hx : AllReal x) (hy : AllReal y) :
    AllReal (maximumf (F := Ideal) x y) := fun i => (hx i).max (hy i)

theorem isReal_scalar_addf {x y : Ideal φ} (hx : IsReal x) (hy : IsReal y) : IsReal (Scalar.addf (F := Ideal) x y) := hx.add hy
theorem isReal_scalar_subf {x y : Ideal φ} (hx : IsReal x) (hy : IsReal y) : IsReal (Scalar.subf (F := Ideal) x y) := hx.sub hy
theorem isReal_scalar_mulf {x y : Ideal φ} (hx : IsReal x) (hy : IsReal y) : IsReal (Scalar.mulf (F := Ideal) x y) := hx.mul hy
theorem isReal_scalar_maximumf {x y : Ideal φ} (hx : IsReal x) (hy : IsReal y) :
    IsReal (Scalar.maximumf (F := Ideal) x y) := hx.max hy

/-- Lane-by-lane selection, under ANY mask: each result entry is an entry of one of the branches. -/
theorem allReal_select (c : IVec s 1) {a b : s.Idx → EReal} (ha : AllReal a) (hb : AllReal b) :
    AllReal (select c a b) := by
  intro i
  show IsReal (if c i = 1 then a i else b i)
  split
  · exact ha i
  · exact hb i
/-- Selection on a scalar condition, between whole arrays. -/
theorem allReal_scalar_select {ι : Type} (c : BitVec 1) {a b : ι → EReal} (ha : AllReal a) (hb : AllReal b) :
    AllReal (Scalar.select c a b) := by
  show AllReal (if c = 1 then a else b)
  split
  · exact ha
  · exact hb

/-- A change of format is the identity at this instance. -/
theorem allReal_truncf (ψ : FTy) {x : FVec Ideal s φ} (h : ψ.bits < φ.bits) (hx : AllReal x) :
    AllReal (truncf (F := Ideal) ψ x h) := fun i => hx i
theorem allReal_extf (ψ : FTy) {x : FVec Ideal s φ} (h : φ.bits < ψ.bits) (hx : AllReal x) :
    AllReal (extf (F := Ideal) ψ x h) := fun i => hx i
theorem allReal_id {ι : Type} {x : ι → EReal} (hx : AllReal x) : AllReal (id x) := hx
theorem allZero_id {ι : Type} {x : ι → EReal} (hx : AllZero x) : AllZero (id x) := hx

end Elementwise

/-! ## Constants and conversions -/

section Constants
variable {s : Shape}

theorem ofBits_f32_zero : Scalar.ofBits (F := Ideal) .f32 0x00000000#32 = 0 := Ideal.ofBits_zero_f32
theorem ofBits_f32_one : Scalar.ofBits (F := Ideal) .f32 0x3F800000#32 = 1 := by
  show Ideal.ofBits .f32 0x3F800000#32 = 1
  simp [Ideal.ofBits, Ideal.ieee, -EReal.coe_mul]; norm_num
theorem isReal_ofBits_zero : IsReal (Scalar.ofBits (F := Ideal) .f32 0x00000000#32) := by rw [ofBits_f32_zero]; exact isReal_zero
theorem isReal_ofBits_one : IsReal (Scalar.ofBits (F := Ideal) .f32 0x3F800000#32) := by rw [ofBits_f32_one]; exact isReal_one
theorem allZero_constant_zero (s : Shape) : AllZero (constant (F := Ideal) s .f32 0x00000000#32) := fun _ => ofBits_f32_zero
theorem allReal_constant_zero (s : Shape) : AllReal (constant (F := Ideal) s .f32 0x00000000#32) := fun _ => isReal_ofBits_zero
theorem allReal_constant_one (s : Shape) : AllReal (constant (F := Ideal) s .f32 0x3F800000#32) := fun _ => isReal_ofBits_one
/-- The splat of one value. -/
theorem allReal_broadcast (t : Shape) {x : EReal} (hx : IsReal x) : AllReal (broadcast t x) := fun _ => hx
theorem allZero_broadcast (t : Shape) {x : EReal} (hx : x = 0) : AllZero (broadcast t x) := fun _ => hx
theorem allReal_broadcast_zero (t : Shape) : AllReal (broadcast t (Scalar.ofBits (F := Ideal) .f32 0x00000000#32)) := fun _ => isReal_ofBits_zero
theorem allReal_broadcast_one (t : Shape) : AllReal (broadcast t (Scalar.ofBits (F := Ideal) .f32 0x3F800000#32)) := fun _ => isReal_ofBits_one
/-- An integer read as a float is that integer. -/
theorem allReal_sitofp (φ : FTy) {w : Nat} (x : IVec s w) : AllReal (sitofp (F := Ideal) φ x) := fun i => ⟨((x i).toInt : ℝ), rfl⟩

end Constants

/-! ## Re-indexings: every result entry is an operand entry (or, for a pad, the pad value) -/

section Layout
variable {s t : Shape}

theorem allReal_broadcastInDim (dims : Fin s.rank → Fin t.rank) (h : s.BroadcastsInDim t dims) {x : s.Idx → EReal}
    (hx : AllReal x) : AllReal (broadcastInDim t dims h x) := fun _ => hx _
theorem allZero_broadcastInDim (dims : Fin s.rank → Fin t.rank) (h : s.BroadcastsInDim t dims) {x : s.Idx → EReal}
    (hx : AllZero x) : AllZero (broadcastInDim t dims h x) := fun _ => hx _
theorem allReal_broadcastTo {x : s.Idx → EReal} (h : s.Broadcasts t) (hx : AllReal x) : AllReal (broadcastTo t x h) := fun _ => hx _
theorem allReal_shapeCast {x : s.Idx → EReal} (h : s.ShapeCasts t) (hx : AllReal x) : AllReal (shapeCast t x h) := fun _ => hx _
theorem allReal_extractStridedSlice (off : Fin s.rank → Nat) {x : s.Idx → EReal} (h : s.Slices off t) (hx : AllReal x) :
    AllReal (extractStridedSlice t off x h) := fun _ => hx _
/-- Padding with the one element of a rank-zero operand. -/
theorem allReal_pad (lo hi interior : Fin s.rank → Nat) {x : s.Idx → EReal} {u : Shape} {v : u.Idx → EReal}
    (h : s.Pads lo hi interior t) (hu : 0 < u.numel) (hx : AllReal x) (hv : AllReal v) :
    AllReal (pad t lo hi interior x v h hu) := by
  intro j
  unfold pad
  split
  · exact hx _
  · exact hv _
/-- A gather, for ANY index operand: each result entry is the operand's entry at the computed index. -/
theorem allReal_gather {si : Shape} {w : Nat} (d : GatherDims s si t) {x : s.Idx → EReal} (idx : IVec si w)
    (hx : AllReal x) : AllReal (Host.gather d x idx) := fun _ => hx _

end Layout

/-! ## Scatter and sort -/

section Indexing
variable {s si u : Shape} {w : Nat}

/-- The accumulating scatter: each operand entry plus a finite sum of update entries. -/
theorem allReal_scatterAdd {φ : FTy} (d : ScatterDims s si u) {x : FVec Ideal s φ} (idx : IVec si w) {upd : FVec Ideal u φ}
    (hx : AllReal x) (hu : AllReal upd) : AllReal (Host.scatterAdd (F := Ideal) d x idx upd) := by
  intro i
  show IsReal (x i + ∑ j ∈ Finset.univ.filter (fun j => d.resultIdx? j idx = some i), upd j)
  exact (hx i).add (isReal_sum _ fun k _ => hu k)
/-- A scatter whose body is any operation that keeps real numbers real. -/
theorem allReal_scatter (d : ScatterDims s si u) (f : EReal → EReal → EReal)
    (hf : ∀ a b, IsReal a → IsReal b → IsReal (f a b)) {x : s.Idx → EReal} (idx : IVec si w) {upd : u.Idx → EReal}
    (hx : AllReal x) (hu : AllReal upd) : AllReal (Host.scatter d f x idx upd) := by
  unfold Host.scatter
  generalize List.finRange u.numel = l
  induction l generalizing x with
  | nil => exact hx
  | cons n l ih =>
    rw [List.foldl_cons]
    apply ih
    split
    · intro i'
      show IsReal (if i' = _ then _ else _)
      split
      · exact hf _ _ (hx _) (hu _)
      · exact hx _
    · exact hx
/-- The overwriting scatter (its body returns the update): each result entry is an operand entry
    or an update entry. -/
theorem allReal_scatter_set (d : ScatterDims s si u) {x : s.Idx → EReal} (idx : IVec si w) {upd : u.Idx → EReal}
    (hx : AllReal x) (hu : AllReal upd) : AllReal (Host.scatter d (fun _ b => b) x idx upd) := allReal_scatter d _ (fun _ _ _ hb => hb) idx hx hu
/-- A sort of four operands permutes each of them: the fourth output's entries are entries of the
    fourth input, for any comparator and any other three operands. -/
theorem allReal_sort4_4 (s : Shape) (d : Nat) {α β γ : Type} (cmp : α × β × γ × EReal → α × β × γ × EReal → BitVec 1)
    (x : s.Idx → α) (y : s.Idx → β) (z : s.Idx → γ) {v : s.Idx → EReal} (hv : AllReal v) :
    AllReal (Host.sort4 s d cmp x y z v).2.2.2 := by
  unfold Host.sort4
  split
  · intro j; exact hv _
  · exact hv

end Indexing

/-! ## Contractions -/

section Contract
variable {sl sr so : Shape} {φ₁ φ₂ : FTy}

theorem allReal_matmul (d : DotDims sl sr so) (prec : Option ContractPrecision) {lhs : FVec Ideal sl φ₁}
    {rhs : FVec Ideal sr φ₂} {acc : FVec Ideal so .f32} (hl : AllReal lhs) (hr : AllReal rhs) (ha : AllReal acc) :
    AllReal (matmul (F := Ideal) d prec lhs rhs acc) := by
  intro j
  show IsReal (acc j + ∑ k : d.contr.Idx, lhs (d.lhsIdx j k) * rhs (d.rhsIdx j k))
  exact (ha j).add (isReal_sum _ fun k _ => (hl _).mul (hr _))
theorem allReal_dotGeneral (d : DotDims sl sr so) (prec : Option ContractPrecision) {lhs : FVec Ideal sl φ₁}
    {rhs : FVec Ideal sr φ₂} (hl : AllReal lhs) (hr : AllReal rhs) :
    AllReal (Host.dotGeneral (F := Ideal) d prec lhs rhs) := by
  intro j
  show IsReal ((0 : EReal) + ∑ k : d.contr.Idx, lhs (d.lhsIdx j k) * rhs (d.rhsIdx j k))
  exact isReal_zero.add (isReal_sum _ fun k _ => (hl _).mul (hr _))

end Contract

/-! ## The degree normaliser -/

/-- `where (deg > 0) (rsqrt deg) 0` is finite for EVERY `deg`: where `deg > 0` the reciprocal square
    root is a positive real (and `0` at `+∞`); elsewhere the chosen branch is `0`.  The two zero arrays
    (the one compared against, the one selected) may be different terms. -/
theorem allReal_dinv {s : Shape} (deg : FVec Ideal s .f32) {z₁ z₂ : FVec Ideal s .f32} (hz₁ : AllZero z₁) (hz₂ : AllZero z₂) :
    AllReal (select (cmpf (F := Ideal) .ogt deg z₁) (Host.rsqrt (F := Ideal) deg) z₂) := by
  intro i
  show IsReal (if Ideal.cmp .ogt (deg i) (z₁ i) = 1 then Ideal.rsqrt (deg i) else z₂ i)
  rw [hz₁ i, hz₂ i]
  generalize deg i = a
  by_cases h : (0 : EReal) < a
  · have hc : Ideal.cmp .ogt a 0 = 1 := by simp [Ideal.cmp, h]
    rw [if_pos hc]
    induction a using EReal.rec with
    | bot => exact absurd h (by simp)
    | top => rw [Ideal.rsqrt_top]; exact isReal_zero
    | coe r =>
      have hr : 0 < r := by exact_mod_cast h
      rw [Ideal.rsqrt_coe, if_neg (not_lt.mpr hr.le), if_neg hr.ne']
      exact isReal_coe _
  · have hc : ¬ Ideal.cmp .ogt a 0 = 1 := by simp [Ideal.cmp, h]
    rw [if_neg hc]
    exact isReal_zero

/-! ## `log_softmax` over an axis of extent one -/

abbrev Sh0 : Shape := ⟨0, ![]⟩
abbrev ShN : Shape := ⟨1, ![200000]⟩
abbrev ShNx1 : Shape := ⟨2, ![200000, 1]⟩

/-- `log_softmax` along axis 1 of a `200000 × 1` array (`ShNx1`; `ShN` its reduced shape, `Sh0` the rank-zero shape of the initial values), operation by operation: the maximum along the
    axis from `-∞`, its maximum with `-∞`, the shifted argument, its exponential, the sum along the
    axis from `0`, its logarithm, the difference. -/
def logSoftmax1 (h : FVec Ideal ShNx1 .f32) (hr : ShNx1.ReducesTo [1] ShN) (hu : 0 < Sh0.numel)
    (hb0 : Sh0.BroadcastsInDim ShN (![] : Fin 0 → Fin ShN.rank))
    (hb1 : ShN.BroadcastsInDim ShNx1 (![0] : Fin 1 → Fin ShNx1.rank)) : FVec Ideal ShNx1 .f32 :=
  let cst : FVec Ideal Sh0 .f32 := constant (F := Ideal) Sh0 .f32 0xFF800000#32
  let v0 : FVec Ideal ShN .f32 := Host.reduce (FloatOps.maximumf (F := Ideal) (φ := .f32)) h cst hr hu
  let cst_0 : FVec Ideal Sh0 .f32 := constant (F := Ideal) Sh0 .f32 0xFF800000#32
  let v1 : FVec Ideal ShN .f32 := broadcastInDim ShN ![] hb0 cst_0
  let v2 : FVec Ideal ShN .f32 := maximumf (F := Ideal) v1 v0
  let v3 : FVec Ideal ShNx1 .f32 := broadcastInDim ShNx1 ![0] hb1 v2
  let v4 : FVec Ideal ShNx1 .f32 := subf (F := Ideal) h v3
  let v5 : FVec Ideal ShNx1 .f32 := Host.exp (F := Ideal) v4
  let cst_1 : FVec Ideal Sh0 .f32 := constant (F := Ideal) Sh0 .f32 0x00000000#32
  let v6 : FVec Ideal ShN .f32 := Host.reduceAdd (F := Ideal) v5 cst_1 hr hu
  let v7 : FVec Ideal ShNx1 .f32 := broadcastInDim ShNx1 ![0] hb1 v6
  let v8 : FVec Ideal ShNx1 .f32 := Host.log (F := Ideal) v7
  subf (F := Ideal) v4 v8

/-- On finite input, `log_softmax` over an axis of extent one is identically zero: the maximum is the
    entry itself, the shifted argument `0`, its exponential `1`, the sum `1`, its logarithm `0`. -/
theorem logSoftmax1_eq_zero {h : FVec Ideal ShNx1 .f32} (hr : ShNx1.ReducesTo [1] ShN) (hu : 0 < Sh0.numel)
    (hb0 : Sh0.BroadcastsInDim ShN (![] : Fin 0 → Fin ShN.rank))
    (hb1 : ShN.BroadcastsInDim ShNx1 (![0] : Fin 1 → Fin ShNx1.rank)) (hh : AllReal h) :
    logSoftmax1 h hr hu hb0 hb1 = fun _ => ((0 : ℝ) : EReal) := by
  have hR : ShNx1.Reduces [1] ShN := ⟨hr.1, by decide, hr.2⟩
  have hbot : Ideal.ofBits .f32 0xFF800000#32 = ⊥ := by simp [Ideal.ofBits, Ideal.ieee]
  -- the reduced axis has one coordinate
  have hu1 : (Finset.univ : Finset (Fin (ShNx1.size 1))) = {⟨0, by decide⟩} := by
    ext k
    simp only [Finset.mem_univ, Finset.mem_singleton, true_iff]
    exact Fin.ext (by show k.val = 0; have hk : k.val < 1 := k.isLt; omega)
  -- a full index is its reduced index with the coordinate 0 put back
  have hlift : ∀ j : ShNx1.Idx, hR.lift (hR.drop j) ⟨0, by decide⟩ = j := by
    intro j
    have h1 : j 1 = (⟨0, by decide⟩ : Fin (ShNx1.size 1)) :=
      Fin.ext (by show (j 1).val = 0; have hk : (j 1).val < 1 := (j 1).isLt; omega)
    calc hR.lift (hR.drop j) ⟨0, by decide⟩ = hR.lift (hR.drop j) (j 1) := by rw [h1]
      _ = j := hR.lift_drop j
  have hdrop0 : ∀ j : ShNx1.Idx, ((hR.drop j) 0).val = (j 0).val := fun j => hR.drop_apply_val_of_eq j 0 0
  -- broadcasting a reduced array back reads it at the reduced index
  have hb : ∀ (x : FVec Ideal ShN .f32) (j : ShNx1.Idx), broadcastInDim ShNx1 ![0] hb1 x j = x (hR.drop j) := by
    intro x j
    unfold broadcastInDim
    refine congrArg x (funext fun a => Fin.ext ?_)
    have ha : a = 0 := Fin.ext (by show a.val = 0; have hk : a.val < 1 := a.isLt; omega)
    subst ha
    rw [dif_neg (by decide)]
    exact (hdrop0 j).symm
  -- the maximum along the axis, from -∞, is the one entry
  have hv0 : ∀ j' : ShN.Idx,
      Host.reduce (FloatOps.maximumf (F := Ideal) (φ := .f32)) h (constant (F := Ideal) Sh0 .f32 0xFF800000#32) hr hu j'
        = h (hR.lift j' ⟨0, by decide⟩) := by
    intro j'
    rw [Host.reduce_eq_fold_single (FloatOps.maximumf (F := Ideal) (φ := .f32)) h _ hr hR hu j', hu1, Finset.fold_singleton]
    show max (h (hR.lift j' ⟨0, by decide⟩)) (Ideal.ofBits .f32 0xFF800000#32) = _
    rw [hbot, max_bot_right]
  -- the sum along the axis, from 0, is the one entry
  have hsum : ∀ (x : FVec Ideal ShNx1 .f32) (j' : ShN.Idx),
      Host.reduceAdd (F := Ideal) x (constant (F := Ideal) Sh0 .f32 0x00000000#32) hr hu j' = x (hR.lift j' ⟨0, by decide⟩) := by
    intro x j'
    show Ideal.hostReduceAdd hr x (Ideal.ofBits .f32 0x00000000#32) j' = _
    rw [Ideal.hostReduceAdd_single hr hR, Ideal.ofBits_zero_f32, zero_add, hu1, Finset.sum_singleton]
  let V0 : FVec Ideal ShN .f32 :=
    Host.reduce (FloatOps.maximumf (F := Ideal) (φ := .f32)) h (constant (F := Ideal) Sh0 .f32 0xFF800000#32) hr hu
  let V2 : FVec Ideal ShN .f32 :=
    maximumf (F := Ideal) (broadcastInDim ShN ![] hb0 (constant (F := Ideal) Sh0 .f32 0xFF800000#32)) V0
  let V4 : FVec Ideal ShNx1 .f32 := subf (F := Ideal) h (broadcastInDim ShNx1 ![0] hb1 V2)
  let V6 : FVec Ideal ShN .f32 :=
    Host.reduceAdd (F := Ideal) (Host.exp (F := Ideal) V4) (constant (F := Ideal) Sh0 .f32 0x00000000#32) hr hu
  have hV2 : ∀ j' : ShN.Idx, V2 j' = h (hR.lift j' ⟨0, by decide⟩) := by
    intro j'
    show max (Ideal.ofBits .f32 0xFF800000#32) (V0 j') = _
    rw [hbot, max_bot_left]
    exact hv0 j'
  -- the shifted argument is 0 everywhere
  have hV4 : ∀ i : ShNx1.Idx, V4 i = 0 := by
    intro i
    show h i - broadcastInDim ShNx1 ![0] hb1 V2 i = 0
    rw [hb V2 i, hV2, hlift]
    obtain ⟨r, hri⟩ := hh i
    rw [hri, ← EReal.coe_sub, sub_self, EReal.coe_zero]
  have hV5 : ∀ i : ShNx1.Idx, Host.exp (F := Ideal) V4 i = 1 := by
    intro i
    show Ideal.exp (V4 i) = 1
    rw [hV4 i, ← EReal.coe_zero, Ideal.exp_coe, Real.exp_zero, EReal.coe_one]
  have hV6 : ∀ j' : ShN.Idx, V6 j' = 1 := by
    intro j'
    show Host.reduceAdd (F := Ideal) (Host.exp (F := Ideal) V4) (constant (F := Ideal) Sh0 .f32 0x00000000#32) hr hu j' = 1
    rw [hsum, hV5]
  have e : logSoftmax1 h hr hu hb0 hb1
      = subf (F := Ideal) V4 (Host.log (F := Ideal) (broadcastInDim ShNx1 ![0] hb1 V6)) := rfl
  rw [e]
  funext j
  simp only [subf, Host.log, Ideal.subf_def, Ideal.hostUnary_log_def]
  rw [hV4 j, hb V6 j, hV6, ← EReal.coe_one, Ideal.log_coe, if_neg (by norm_num), Real.log_one, EReal.coe_zero, sub_zero]

end Cert.LibFinite

end
-- ==== Proof.Algebra.lean ====
/-
  Over real numbers the kernel's spike is the reference's: the mean of squares minus the squared mean
  is the mean of the squared deviations, which is not negative, so the clamp at zero does nothing;
  half of a number is that number divided by two; and `v ≥ 1` says the same as `v - 1 ≥ 0`.
  Also: the sum over the 100000 nodes, core by core and tile by tile.
-/
import proofs.«420227_j26465588478209_3_alg».proof.Proof.Spec
import proofs.«420227_j26465588478209_3_alg».proof.Proof.LibFinite
import Mathlib.Logic.Equiv.Fin.Basic
import Mathlib.Algebra.BigOperators.Fin
import Mathlib.Algebra.BigOperators.Ring.Finset
import Mathlib.Algebra.Order.BigOperators.Group.Finset
import Mathlib.Analysis.SpecialFunctions.Pow.Real
import Mathlib.Tactic.Ring
import Mathlib.Tactic.Positivity
import Mathlib.Tactic.NormNum
import Mathlib.Tactic.Linarith

noncomputable section

namespace Cert.Algebra

open Idealize.ShloMosaic Cert.Spec Cert.LibFinite
open scoped BigOperators

/-! ## The sum over the nodes, regrouped -/

/-- The node numbering as a bijection: a core, a tile of the core and a row of the tile name exactly
    one node, `row + 10000 * (j + 5 * cc)`. -/
def rowEquiv : (Fin 2 × Fin 5) × Fin 10000 ≃ Fin 100000 :=
  (Equiv.prodCongr finProdFinEquiv (Equiv.refl (Fin 10000))).trans
    (finProdFinEquiv.trans (finCongr (by norm_num)))

theorem rowEquiv_apply (cc : Fin 2) (j : Fin 5) (row : Fin 10000) :
    rowEquiv ((cc, j), row) = rowOf cc j row := by
  apply Fin.ext
  simp only [rowEquiv, rowOf, Equiv.trans_apply, Equiv.prodCongr_apply, Prod.map_apply, Equiv.refl_apply,
    finCongr_apply_coe, finProdFinEquiv_apply_val]
  ring

/-- A sum over the nodes, taken core by core (2), tile by tile (5 a core), row by row (10000 a tile). -/
theorem sum_rows {M : Type} [AddCommMonoid M] (f : Fin 100000 → M) :
    ∑ r : Fin 100000, f r = ∑ cc : Fin 2, ∑ j : Fin 5, ∑ row : Fin 10000, f (rowOf cc j row) := by
  rw [← rowEquiv.sum_comp f, Fintype.sum_prod_type, Fintype.sum_prod_type]
  refine Finset.sum_congr rfl fun cc _ => Finset.sum_congr rfl fun j _ => Finset.sum_congr rfl fun row _ => ?_
  rw [rowEquiv_apply]

/-! ## The projection is real -/

/-- The projection of real features by real weights, plus a real bias, is real. -/
theorem hOf_real {X : Fin 100000 → Fin 64 → EReal} {W : Fin 64 → Fin 64 → EReal} {b : Fin 64 → EReal}
    (hX : ∀ r k, IsReal (X r k)) (hW : ∀ d k, IsReal (W d k)) (hb : ∀ d, IsReal (b d)) (r : Fin 100000) (d : Fin 64) :
    IsReal (hOf X W b r d) := by
  unfold hOf
  exact (isReal_sum _ fun k _ => (hX r k).mul (hW d k)).add (hb d)

/-! ## The float words as real numbers -/

theorem zE_eq : zE = ((0 : ℝ) : EReal) := by
  rw [EReal.coe_zero]; exact Ideal.ofBits_zero_f32

theorem oneE_eq : oneE = ((1 : ℝ) : EReal) := by
  show Ideal.ofBits .f32 0x3F800000#32 = _
  simp [Ideal.ofBits, Ideal.ieee, -EReal.coe_mul] <;> norm_num

theorem halfE_eq : halfE = ((1 / 2 : ℝ) : EReal) := by
  show Ideal.ofBits .f32 0x3F000000#32 = _
  simp [Ideal.ofBits, Ideal.ieee, -EReal.coe_mul] <;> norm_num

theorem twoE_eq : twoE = ((2 : ℝ) : EReal) := by
  show Ideal.ofBits .f32 0x40000000#32 = _
  simp [Ideal.ofBits, Ideal.ieee, -EReal.coe_mul] <;> norm_num

/-- The node count: `(2^23 + 4411392) · 2^(143 - 127 - 23) = 100000`. -/
theorem nE_eq : nE = ((100000 : ℝ) : EReal) := by
  show Ideal.ofBits .f32 0x47C35000#32 = _
  simp [Ideal.ofBits, Ideal.ieee, -EReal.coe_mul] <;> norm_num

/-- The variance's regulariser is a positive real (about `1e-5`); nothing more of it is used. -/
theorem epsE_pos : ∃ e : ℝ, 0 < e ∧ epsE = (e : EReal) := by
  refine ⟨(10995116 : ℝ) * (2 : ℝ) ^ (-40 : ℤ), by positivity, ?_⟩
  show Ideal.ofBits .f32 0x3727C5AC#32 = _
  simp [Ideal.ofBits, Ideal.ieee, -EReal.coe_mul] <;> norm_num

/-! ## Real numbers inside the extended reals -/

/-- The embedding of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The quotient of a real by a nonzero real. -/
theorem div_coe_coe (a : ℝ) {y : ℝ} (hy : y ≠ 0) : Ideal.div (a : EReal) (y : EReal) = ((a / y : ℝ) : EReal) := by
  rw [Ideal.div_coe hy, ← EReal.coe_mul, mul_one_div]

/-- The reciprocal square root of a positive real. -/
theorem rsqrt_coe_pos {x : ℝ} (hx : 0 < x) : Ideal.rsqrt (x : EReal) = (((Real.sqrt x)⁻¹ : ℝ) : EReal) := by
  rw [Ideal.rsqrt_coe, if_neg (not_lt.mpr hx.le), if_neg hx.ne']

theorem cmp_oge (x y : EReal) : Ideal.cmp .oge x y = BitVec.ofBool (decide (y ≤ x)) := rfl

/-- A truth value as a one-bit word, read as an integer after zero-extension or as a natural number:
    `1` or `0` both ways. -/
theorem ofBool_toInt (p : Bool) :
    ((((BitVec.ofBool p).setWidth 32).toInt : ℤ) : ℝ) = (((BitVec.ofBool p).toNat : ℕ) : ℝ) := by
  have h : ((BitVec.ofBool p).setWidth 32).toInt = (((BitVec.ofBool p).toNat : ℕ) : ℤ) := by
    cases p <;> decide
  rw [h, Int.cast_natCast]

/-! ## Mean and variance of real data -/

/-- The mean of the squared deviations is the mean of the squares minus the squared mean. -/
theorem var_identity (h : Fin 100000 → ℝ) :
    (∑ k, (h k - (∑ k, h k) / 100000) * (h k - (∑ k, h k) / 100000)) / 100000
      = (∑ k, h k * h k) / 100000 - ((∑ k, h k) / 100000) * ((∑ k, h k) / 100000) := by
  generalize hS : (∑ k, h k) = S
  have e : ∀ k, (h k - S / 100000) * (h k - S / 100000)
      = h k * h k - (2 * (S / 100000)) * h k + (S / 100000) * (S / 100000) := fun k => by ring
  simp only [e]
  rw [Finset.sum_add_distrib, Finset.sum_sub_distrib, ← Finset.mul_sum, hS, Finset.sum_const, Finset.card_univ,
    Fintype.card_fin, nsmul_eq_mul]
  push_cast
  ring

/-- The mean of the squared deviations is not negative. -/
theorem var_nonneg (h : Fin 100000 → ℝ) (μ : ℝ) : 0 ≤ (∑ k, (h k - μ) * (h k - μ)) / 100000 :=
  div_nonneg (Finset.sum_nonneg fun k _ => mul_self_nonneg _) (by norm_num)

section Stats
variable {H : Fin 100000 → Fin 64 → EReal} (h : Fin 100000 → Fin 64 → ℝ) (hh : ∀ r d, H r d = ((h r d : ℝ) : EReal))
include hh

theorem meanKer_coe (d : Fin 64) : meanKer H d = (((∑ k, h k d) / 100000 : ℝ) : EReal) := by
  unfold meanKer
  rw [nE_eq]
  simp only [hh]
  rw [← coe_sum, div_coe_coe _ (by norm_num)]

theorem meanRef_coe (d : Fin 64) : meanRef H d = (((∑ k, h k d) / 100000 : ℝ) : EReal) := by
  unfold meanRef
  rw [nE_eq, zE_eq]
  simp only [hh]
  rw [← coe_sum, ← EReal.coe_add, zero_add, div_coe_coe _ (by norm_num)]

theorem varRef_coe (d : Fin 64) :
    varRef H d = (((∑ k, (h k d - (∑ k, h k d) / 100000) * (h k d - (∑ k, h k d) / 100000)) / 100000 : ℝ) : EReal) := by
  unfold varRef
  rw [meanRef_coe h hh d, nE_eq, zE_eq]
  simp only [hh, ← EReal.coe_sub, ← EReal.coe_mul]
  rw [← coe_sum, ← EReal.coe_add, zero_add, div_coe_coe _ (by norm_num)]

/-- The kernel's variance: the clamp at zero keeps its left argument, which is the reference's variance. -/
theorem varKer_coe (d : Fin 64) :
    varKer H d = (((∑ k, (h k d - (∑ k, h k d) / 100000) * (h k d - (∑ k, h k d) / 100000)) / 100000 : ℝ) : EReal) := by
  unfold varKer
  rw [meanKer_coe h hh d, nE_eq, zE_eq]
  simp only [hh, ← EReal.coe_mul]
  rw [← coe_sum, div_coe_coe _ (by norm_num), ← EReal.coe_sub, ← var_identity (fun k => h k d)]
  exact max_eq_left (EReal.coe_le_coe_iff.mpr (var_nonneg (fun k => h k d) _))

end Stats

/-! ## The two spikes on real arguments -/

/-- With a real entry, mean, scale and shift and a variance that is real and not negative, both
    readings form the same real `y`; the kernel asks `1 ≤ 0 + y · (1/2)`, the reference
    `0 ≤ (0 + (y - 0) / 2) - 1`. -/
theorem spike_eq (h μ v g b : ℝ) (hv : 0 ≤ v) :
    spikeKer (h : EReal) (μ : EReal) (v : EReal) (g : EReal) (b : EReal)
      = spikeRef (h : EReal) (μ : EReal) (v : EReal) (g : EReal) (b : EReal) := by
  obtain ⟨e, he, heps⟩ := epsE_pos
  have hs : Ideal.rsqrt ((v : EReal) + epsE) = (((Real.sqrt (v + e))⁻¹ : ℝ) : EReal) := by
    rw [heps, ← EReal.coe_add, rsqrt_coe_pos (by linarith)]
  unfold spikeKer spikeRef
  rw [hs, zE_eq, oneE_eq, halfE_eq, twoE_eq]
  generalize (Real.sqrt (v + e))⁻¹ = s
  have hy : (((h : EReal) - (μ : EReal)) * (s : EReal)) * (g : EReal) + (b : EReal)
      = ((((h - μ) * s) * g + b : ℝ) : EReal) := by
    rw [EReal.coe_add, EReal.coe_mul, EReal.coe_mul, EReal.coe_sub]
  rw [hy]
  generalize ((h - μ) * s) * g + b = y
  rw [cmp_oge, cmp_oge, ofBool_toInt, ← EReal.coe_sub y 0, div_coe_coe _ (by norm_num), ← EReal.coe_mul,
    ← EReal.coe_add, ← EReal.coe_add, ← EReal.coe_sub]
  have hp : decide (((1 : ℝ) : EReal) ≤ ((0 + y * (1 / 2) : ℝ) : EReal))
      = decide (((0 : ℝ) : EReal) ≤ ((0 + (y - 0) / 2 - 1 : ℝ) : EReal)) := by
    apply decide_eq_decide.mpr
    rw [EReal.coe_le_coe_iff, EReal.coe_le_coe_iff]
    constructor <;> intro hle <;> linarith
  rw [hp]

/-- On real data the kernel's reading and the reference's give the same spike. -/
theorem out_eq (H : Fin 100000 → Fin 64 → EReal) (gam bet : Fin 64 → EReal)
    (hH : ∀ r d, IsReal (H r d)) (hg : ∀ d, IsReal (gam d)) (hb : ∀ d, IsReal (bet d)) (r : Fin 100000) (d : Fin 64) :
    kerOut H gam bet r d = refOut H gam bet r d := by
  choose h hh using hH
  obtain ⟨g, hg'⟩ := hg d
  obtain ⟨b, hb'⟩ := hb d
  unfold kerOut refOut
  rw [meanKer_coe h hh d, meanRef_coe h hh d, varKer_coe h hh d, varRef_coe h hh d, hh r d, hg', hb']
  exact spike_eq _ _ _ _ _ (var_nonneg (fun k => h k d) _)

end Cert.Algebra

end
-- ==== Proof.KernelOut.lean ====
/-
  The kernel program's result: between the two kernels the host adds the two cores' sums, divides by
  the number of nodes and forms the clamped variance — the kernel's mean and variance of the
  projection —, and the second kernel's result is then the kernel's spike, node by node.
-/
import proofs.«420227_j26465588478209_3_alg».proof.Proof.KernelValue
import proofs.«420227_j26465588478209_3_alg».proof.Proof.Region0
import proofs.«420227_j26465588478209_3_alg».proof.Proof.Region1
import proofs.«420227_j26465588478209_3_alg».proof.Proof.Algebra

set_option maxRecDepth 16384

noncomputable section

namespace Cert.KernelIdeal.KO

open Idealize.ShloMosaic Idealize.ShloMosaic.TcCoe Idealize.ShloMosaic.ValueIdx Idealize.SL.Sem Idealize.ShloMosaic.StableHlo
open Cert.KernelIdeal Cert.KernelIdeal.Gen Cert.Spec Cert.KernelIdeal.KV
open scoped BigOperators

variable (m : (ℓ : Loc nD τ sig) → Buf (Elt Ideal) ℓ) (ρ : Dev nD → PrngReg)

/-- The projection (with bias) of the reference's aggregated features of the launch inputs. -/
def Hm (c : Dev nD) : Fin 100000 → Fin 64 → EReal :=
  hOf (fun r k => Cert.ReferenceIdeal.Read.val_main_v59 (F := Ideal) (a0 m c) (a1 m c) (a2 m c) (ix2 r k))
    (fun d k => a3 m c (ix2 d k)) (fun d => a4 m c (ix1 d))

/-! ## The first kernel's entry -/

theorem hK_eq (c : Dev nD) : R0.hK (V3 m ρ) c = Hm m c := by
  show hOf (fun r k => (U3 m ρ c (Proc.devRef .tc main_v59) : S100000x64.Idx → EReal) (ix2 r k))
      (fun d k => (U3 m ρ c (Proc.devRef .tc main_arg3) : S64x64.Idx → EReal) (ix2 d k))
      (fun d => (U3 m ρ c (Proc.devRef .tc main_v60) : S1x64.Idx → EReal) (ix2 (0 : Fin 1) d)) = _
  rw [u3_v59 m ρ c, u3_arg3 m ρ c]
  unfold Hm
  congr 1
  funext d
  exact u3_v60 m ρ c d

/-- Core `cc`'s sums after the first kernel. -/
theorem w4_sum (c : Dev nD) (cc : Fin 2) (d : Fin 64) :
    (W4 m ρ c (Proc.devRef .tc main_v63_0) : S2x1x64.Idx → EReal) (ix3 cc (0 : Fin 1) d)
      = ∑ j : Fin 5, ∑ row : Fin 10000, Hm m c (rowOf cc j row) d := by
  rw [show W4 m ρ c (Proc.devRef .tc main_v63_0) = (dat0 (V3 m ρ) c).arrAt 3 cfg0.N from W4_arr m ρ c 3]
  rw [R0.sums, hK_eq]
theorem w4_sumsq (c : Dev nD) (cc : Fin 2) (d : Fin 64) :
    (W4 m ρ c (Proc.devRef .tc main_v63_1) : S2x1x64.Idx → EReal) (ix3 cc (0 : Fin 1) d)
      = ∑ j : Fin 5, ∑ row : Fin 10000, Hm m c (rowOf cc j row) d * Hm m c (rowOf cc j row) d := by
  rw [show W4 m ρ c (Proc.devRef .tc main_v63_1) = (dat0 (V3 m ρ) c).arrAt 4 cfg0.N from W4_arr m ρ c 4]
  rw [R0.sumsq, hK_eq]

/-! ## Between the kernels -/

/-- A scalar constant spread over a [1,64] row, entry by entry. -/
theorem row_const (w : BitVec 32) (d : Fin 64) :
    broadcastInDim S1x64 ![] bcast_S_S1x64 (constant (F := Ideal) S_ .f32 w) (ix2 (0 : Fin 1) d) = Ideal.ofBits .f32 w := by
  rw [broadcastInDim_apply _ bcast_S_S1x64 _ (ix2 (0 : Fin 1) d) ix0 (fun a => a.elim0)]
  rfl

/-- The host's division, entry by entry. -/
theorem hostDivf_apply {s : Shape} (x y : FVec Ideal s .f32) (i : s.Idx) : Host.divf x y i = Ideal.div (x i) (y i) := rfl

/-- The host's sum over the two cores of a [2,1,64] array, entry by entry. -/
theorem core_sum (x : S2x1x64.Idx → EReal) (d : Fin 64) :
    Host.reduceAdd (F := Ideal) (φ := .f32) x (constant (F := Ideal) S_ .f32 0x00000000#32) reducesTo_S2x1x64_S1x64_d0 h_S_ (ix2 (0 : Fin 1) d)
      = ∑ cc : Fin 2, x (ix3 cc (0 : Fin 1) d) := by
  simp only [Host.reduceAdd, Ideal.hostReduceAdd_def]
  rw [Ideal.hostReduceAdd_single reducesTo_S2x1x64_S1x64_d0 (by decide)]
  have hz : constant (F := Ideal) S_ .f32 0x00000000#32 (Shape.Idx.first h_S_) = 0 := Ideal.ofBits_zero_f32
  rw [hz, zero_add]
  exact Finset.sum_congr rfl fun k _ => congrArg x (funext fun a => Fin.ext (by
    match a with
    | ⟨0, _⟩ => rfl
    | ⟨1, _⟩ => rfl
    | ⟨2, _⟩ => rfl))

/-- The larger of two arrays, entry by entry. -/
theorem maximumf_apply {s : Shape} (x y : FVec Ideal s .f32) (i : s.Idx) : maximumf x y i = max (x i) (y i) := rfl

/-- The first kernel's two result arrays. -/
abbrev sArr (c : Dev nD) : S2x1x64.Idx → EReal := W4 m ρ c (Proc.devRef .tc main_v63_0)
abbrev qArr (c : Dev nD) : S2x1x64.Idx → EReal := W4 m ρ c (Proc.devRef .tc main_v63_1)

/-- The two cores' sums together are the sums over all nodes. -/
theorem total_sum (c : Dev nD) (d : Fin 64) :
    ∑ cc : Fin 2, sArr m ρ c (ix3 cc (0 : Fin 1) d) = ∑ k : Fin 100000, Hm m c k d := by
  rw [Algebra.sum_rows]
  exact Finset.sum_congr rfl fun cc _ => w4_sum m ρ c cc d
theorem total_sumsq (c : Dev nD) (d : Fin 64) :
    ∑ cc : Fin 2, qArr m ρ c (ix3 cc (0 : Fin 1) d) = ∑ k : Fin 100000, Hm m c k d * Hm m c k d := by
  rw [Algebra.sum_rows]
  exact Finset.sum_congr rfl fun cc _ => w4_sumsq m ρ c cc d

theorem w5_mean (c : Dev nD) (d : Fin 64) :
    (W5 m ρ c (Proc.devRef .tc main_v67) : S1x64.Idx → EReal) (ix2 (0 : Fin 1) d) = meanKer (Hm m c) d := by
  show StableHlo.after hostOps1 (W4 m ρ c) (Proc.devRef .tc main_v67) (ix2 (0 : Fin 1) d) = _
  generalize hU : W4 m ρ c = U
  after_results_simp
  subst hU
  rw [hostDivf_apply, core_sum (sArr m ρ c) d, row_const, total_sum]
  unfold meanKer
  with_reducible rfl

/-- The mean of squares, then the clamped variance. -/
theorem w5_var (c : Dev nD) (d : Fin 64) :
    (W5 m ρ c (Proc.devRef .tc main_v73) : S1x64.Idx → EReal) (ix2 (0 : Fin 1) d) = varKer (Hm m c) d := by
  show StableHlo.after hostOps1 (W4 m ρ c) (Proc.devRef .tc main_v73) (ix2 (0 : Fin 1) d) = _
  generalize hU : W4 m ρ c = U
  after_results_simp
  subst hU
  rw [maximumf_apply, subf_apply, mulf_apply, hostDivf_apply, hostDivf_apply, core_sum (sArr m ρ c) d, core_sum (qArr m ρ c) d, row_const, row_const,
    total_sum, total_sumsq]
  unfold varKer meanKer
  with_reducible rfl

/-! ## The second kernel's entry, and the result -/

theorem w5_v59 (c : Dev nD) : (W5 m ρ c (Proc.devRef .tc main_v59) : S100000x64.Idx → EReal)
    = Cert.ReferenceIdeal.Read.val_main_v59 (F := Ideal) (a0 m c) (a1 m c) (a2 m c) := by
  show StableHlo.after hostOps1 (W4 m ρ c) (Proc.devRef .tc main_v59) = _
  generalize hU : W4 m ρ c = U
  after_results_simp
  subst hU
  rw [show W4 m ρ c (Proc.devRef .tc main_v59) = (dat0 (V3 m ρ) c).arrAt 0 cfg0.N from W4_arr m ρ c 0]
  rw [(dat0 (V3 m ρ) c).arrAt_in 0 rfl cfg0.N, A_eq0]
  exact u3_v59 m ρ c
theorem w5_arg3 (c : Dev nD) : (W5 m ρ c (Proc.devRef .tc main_arg3) : S64x64.Idx → EReal) = a3 m c := by
  show StableHlo.after hostOps1 (W4 m ρ c) (Proc.devRef .tc main_arg3) = _
  generalize hU : W4 m ρ c = U
  after_results_simp
  subst hU
  rw [show W4 m ρ c (Proc.devRef .tc main_arg3) = (dat0 (V3 m ρ) c).arrAt 1 cfg0.N from W4_arr m ρ c 1]
  rw [(dat0 (V3 m ρ) c).arrAt_in 1 rfl cfg0.N, A_eq0]
  exact u3_arg3 m ρ c
theorem w5_v60 (c : Dev nD) (d : Fin 64) : (W5 m ρ c (Proc.devRef .tc main_v60) : S1x64.Idx → EReal) (ix2 (0 : Fin 1) d) = a4 m c (ix1 d) := by
  have e : W5 m ρ c (Proc.devRef .tc main_v60) = U3 m ρ c (Proc.devRef .tc main_v60) := by
    show StableHlo.after hostOps1 (W4 m ρ c) (Proc.devRef .tc main_v60) = _
    generalize hU : W4 m ρ c = U
    after_results_simp
    subst hU
    rw [show W4 m ρ c (Proc.devRef .tc main_v60) = (dat0 (V3 m ρ) c).arrAt 2 cfg0.N from W4_arr m ρ c 2]
    rw [(dat0 (V3 m ρ) c).arrAt_in 2 rfl cfg0.N, A_eq0]
    rfl
  rw [e]
  exact u3_v60 m ρ c d
theorem w5_v61 (c : Dev nD) (d : Fin 64) : (W5 m ρ c (Proc.devRef .tc main_v61) : S1x64.Idx → EReal) (ix2 (0 : Fin 1) d) = a5 m c (ix1 d) := by
  have e : W5 m ρ c (Proc.devRef .tc main_v61) = U3 m ρ c (Proc.devRef .tc main_v61) := by
    show StableHlo.after hostOps1 (W4 m ρ c) (Proc.devRef .tc main_v61) = _
    generalize hU : W4 m ρ c = U
    after_results_simp
    subst hU
    exact W4_of_ne m ρ c main_v61 (by decide)
  rw [e]
  exact u3_v61 m ρ c d
theorem w5_v62 (c : Dev nD) (d : Fin 64) : (W5 m ρ c (Proc.devRef .tc main_v62) : S1x64.Idx → EReal) (ix2 (0 : Fin 1) d) = a6 m c (ix1 d) := by
  have e : W5 m ρ c (Proc.devRef .tc main_v62) = U3 m ρ c (Proc.devRef .tc main_v62) := by
    show StableHlo.after hostOps1 (W4 m ρ c) (Proc.devRef .tc main_v62) = _
    generalize hU : W4 m ρ c = U
    after_results_simp
    subst hU
    exact W4_of_ne m ρ c main_v62 (by decide)
  rw [e]
  exact u3_v62 m ρ c d

/-- The kernel program's result at node `r` and feature `d`: the kernel's spike of the projection. -/
theorem result_eq (c : Dev nD) (r : Fin 100000) (d : Fin 64) :
    (W6 m ρ c (Proc.devRef .tc main_v74) : S100000x64.Idx → EReal) (ix2 r d)
      = kerOut (Hm m c) (fun d => a5 m c (ix1 d)) (fun d => a6 m c (ix1 d)) r d := by
  rw [show W6 m ρ c (Proc.devRef .tc main_v74) = (dat1 (V5 m ρ) c).arrAt 7 cfg1.N from W6_arr m ρ c 7]
  rw [R1.out_value]
  unfold R1.spikeAt kerOut
  have hX : R1.Xv (V5 m ρ) c = Cert.ReferenceIdeal.Read.val_main_v59 (F := Ideal) (a0 m c) (a1 m c) (a2 m c) := w5_v59 m ρ c
  have hW : R1.Wv (V5 m ρ) c = a3 m c := w5_arg3 m ρ c
  have hb : (fun d => R1.bv (V5 m ρ) c (ix2 (0 : Fin 1) d)) = fun d => a4 m c (ix1 d) := funext (w5_v60 m ρ c)
  have hmean : R1.meanv (V5 m ρ) c (ix2 (0 : Fin 1) d) = meanKer (Hm m c) d := w5_mean m ρ c d
  have hvar : R1.varv (V5 m ρ) c (ix2 (0 : Fin 1) d) = varKer (Hm m c) d := w5_var m ρ c d
  have hg : R1.gamv (V5 m ρ) c (ix2 (0 : Fin 1) d) = a5 m c (ix1 d) := w5_v61 m ρ c d
  have hbe : R1.betv (V5 m ρ) c (ix2 (0 : Fin 1) d) = a6 m c (ix1 d) := w5_v62 m ρ c d
  rw [hX, hW, hb, hmean, hvar, hg, hbe]
  rfl

end Cert.KernelIdeal.KO

end
-- ==== Proof.RefValue.lean ====
/-
  The reference's result read at a node and a feature: the spike of the projection's entry against
  the feature's mean and variance over all nodes.
-/
import proofs.«420227_j26465588478209_3_alg».proof.Proof.Gen.ReferenceIdeal.Read
import proofs.«420227_j26465588478209_3_alg».proof.Proof.Spec
import Idealize.ShloMosaic.Lib.ValueIdx

noncomputable section

namespace Cert.RefValue

open Idealize.ShloMosaic Idealize.ShloMosaic.ValueIdx Cert.ReferenceIdeal Cert.Spec
open scoped BigOperators

/-! ## Where each layout operation reads

  Each equation says which entry of its operand a transpose, a broadcast, a contraction or a sum over the nodes
  reads, at an index given by its coordinates. -/

/-- The contraction reads the left operand along node `r`'s row. -/
private theorem lidx61 (r : Fin 100000) (d k : Fin 64) :
    Read.lidx_main_v61 (ix2 r d) k = ix2 r k :=
  funext fun a => by match a with | ⟨0, _⟩ => rfl | ⟨1, _⟩ => rfl

/-- The contraction reads the transposed weight at `(k, d)`, which is the weight at `(d, k)`. -/
private theorem ridx61 (r : Fin 100000) (d k : Fin 64) :
    Read.idx_main_v60 (Read.ridx_main_v61 (ix2 r d) k) = ix2 d k :=
  funext fun a => by match a with | ⟨0, _⟩ => rfl | ⟨1, _⟩ => rfl

/-- A per-feature vector broadcast to all nodes is read at the feature (the bias). -/
private theorem bidx63 (r : Fin 100000) (d : Fin 64) :
    Read.idx_main_v62 (Read.idx_main_v63 (ix2 r d)) = ix1 d :=
  funext fun a => by match a with | ⟨0, _⟩ => rfl

/-- The sum over the nodes reads node `k` at feature `d` (the sum of the projection's entries). -/
private theorem sidx65 (d : Fin 64) (k : Fin 100000) : Read.idx_main_v65 (ix1 d) k = ix2 k d :=
  funext fun a => by match a with | ⟨0, _⟩ => rfl | ⟨1, _⟩ => rfl

/-- The sum over the nodes reads node `k` at feature `d` (the sum of the squared deviations). -/
private theorem sidx72 (d : Fin 64) (k : Fin 100000) : Read.idx_main_v72 (ix1 d) k = ix2 k d :=
  funext fun a => by match a with | ⟨0, _⟩ => rfl | ⟨1, _⟩ => rfl

/-- A per-feature vector broadcast to all nodes is read at the feature (the mean, under the variance). -/
private theorem bidx69 (r : Fin 100000) (d : Fin 64) :
    Read.idx_main_v68 (Read.idx_main_v69 (ix2 r d)) = ix1 d :=
  funext fun a => by match a with | ⟨0, _⟩ => rfl

/-- A per-feature vector broadcast to all nodes is read at the feature (the mean, under the normalisation). -/
private theorem bidx76 (r : Fin 100000) (d : Fin 64) :
    Read.idx_main_v75 (Read.idx_main_v76 (ix2 r d)) = ix1 d :=
  funext fun a => by match a with | ⟨0, _⟩ => rfl

/-- A per-feature vector broadcast to all nodes is read at the feature (the inverse standard deviation). -/
private theorem bidx82 (r : Fin 100000) (d : Fin 64) :
    Read.idx_main_v81 (Read.idx_main_v82 (ix2 r d)) = ix1 d :=
  funext fun a => by match a with | ⟨0, _⟩ => rfl

/-- A per-feature vector broadcast to all nodes is read at the feature (the scale). -/
private theorem bidx85 (r : Fin 100000) (d : Fin 64) :
    Read.idx_main_v84 (Read.idx_main_v85 (ix2 r d)) = ix1 d :=
  funext fun a => by match a with | ⟨0, _⟩ => rfl

/-- A per-feature vector broadcast to all nodes is read at the feature (the shift). -/
private theorem bidx88 (r : Fin 100000) (d : Fin 64) :
    Read.idx_main_v87 (Read.idx_main_v88 (ix2 r d)) = ix1 d :=
  funext fun a => by match a with | ⟨0, _⟩ => rfl

/-- The reference's projection with bias, at node `r` and feature `d`. -/
theorem h_value (x0 : FVec Ideal S100000x64 .f32) (x1 : IVec S2x1600000 32) (x2 : FVec Ideal S1600000 .f32)
    (x3 : FVec Ideal S64x64 .f32) (x4 : FVec Ideal S64 .f32) (r : Fin 100000) (d : Fin 64) :
    Cert.ReferenceIdeal.Read.val_main_v64 (F := Ideal) x0 x1 x2 x3 x4 (ix2 r d)
      = hOf (fun r k => Cert.ReferenceIdeal.Read.val_main_v59 (F := Ideal) x0 x1 x2 (ix2 r k)) (fun d k => x3 (ix2 d k)) (fun d => x4 (ix1 d)) r d := by
  rw [Read.val_main_v64_apply, Read.val_main_v61_apply, Read.val_main_v63_apply, Read.val_main_v62_apply, bidx63]
  simp only [Read.val_main_v60_apply, lidx61, ridx61, Ideal.addf_def]
  rfl

/-! ## The statistics of a feature, then the entry -/

/-- The projection with bias as a table of extended reals, from the program's arguments. -/
private abbrev projOf (x0 : FVec Ideal S100000x64 .f32) (x1 : IVec S2x1600000 32) (x2 : FVec Ideal S1600000 .f32)
    (x3 : FVec Ideal S64x64 .f32) (x4 : FVec Ideal S64 .f32) : Fin 100000 → Fin 64 → EReal :=
  hOf (fun r k => Cert.ReferenceIdeal.Read.val_main_v59 (F := Ideal) x0 x1 x2 (ix2 r k)) (fun d k => x3 (ix2 d k)) (fun d => x4 (ix1 d))

/-- The reference's mean of feature `d`: zero plus the sum of the projection's entries over the nodes, over the
    number of nodes. -/
private theorem mean_value (x0 : FVec Ideal S100000x64 .f32) (x1 : IVec S2x1600000 32) (x2 : FVec Ideal S1600000 .f32)
    (x3 : FVec Ideal S64x64 .f32) (x4 : FVec Ideal S64 .f32) (d : Fin 64) :
    Cert.ReferenceIdeal.Read.val_main_v67 (F := Ideal) x0 x1 x2 x3 x4 (ix1 d) = meanRef (projOf x0 x1 x2 x3 x4) d := by
  rw [Read.val_main_v67_apply, Read.val_main_v65_apply, Read.val_main_v66_apply, Read.val_main_cst_14_apply,
    Read.val_main_cst_13_apply]
  simp only [sidx65, h_value, Ideal.hostDivf_def, Ideal.ofBits_def]
  unfold meanRef
  with_reducible_and_instances rfl

/-- One node's squared deviation from the feature's mean, as the reference forms it: the difference taken twice and
    multiplied. -/
private theorem sq_value (x0 : FVec Ideal S100000x64 .f32) (x1 : IVec S2x1600000 32) (x2 : FVec Ideal S1600000 .f32)
    (x3 : FVec Ideal S64x64 .f32) (x4 : FVec Ideal S64 .f32) (k : Fin 100000) (d : Fin 64) :
    Cert.ReferenceIdeal.Read.val_main_v71 (F := Ideal) x0 x1 x2 x3 x4 (ix2 k d)
      = (projOf x0 x1 x2 x3 x4 k d - meanRef (projOf x0 x1 x2 x3 x4) d)
          * (projOf x0 x1 x2 x3 x4 k d - meanRef (projOf x0 x1 x2 x3 x4) d) := by
  rw [Read.val_main_v71_apply, Read.val_main_v70_apply, Read.val_main_v69_apply, Read.val_main_v68_apply, bidx69,
    h_value, mean_value]
  with_reducible_and_instances rfl

/-- The reference's variance of feature `d`: zero plus the sum over the nodes of the squared deviation from the
    mean, over the number of nodes. -/
private theorem var_value (x0 : FVec Ideal S100000x64 .f32) (x1 : IVec S2x1600000 32) (x2 : FVec Ideal S1600000 .f32)
    (x3 : FVec Ideal S64x64 .f32) (x4 : FVec Ideal S64 .f32) (d : Fin 64) :
    Cert.ReferenceIdeal.Read.val_main_v74 (F := Ideal) x0 x1 x2 x3 x4 (ix1 d) = varRef (projOf x0 x1 x2 x3 x4) d := by
  rw [Read.val_main_v74_apply, Read.val_main_v72_apply, Read.val_main_v73_apply, Read.val_main_cst_16_apply,
    Read.val_main_cst_15_apply]
  simp only [sidx72, sq_value, Ideal.hostDivf_def, Ideal.ofBits_def]
  unfold varRef
  with_reducible_and_instances rfl

/-- The chain from one entry, the feature's mean and variance, scale and shift to the spike, on plain extended
    reals: normalise, scale, shift, take half of the distance from rest as the charge, compare the charge less
    the threshold with zero, and read the comparison's bit as a number. -/
private theorem spike_eq (h μ var g b : EReal) :
    FloatOps.uitofp (F := Ideal) .f32
      (FloatOps.cmpf (F := Ideal) (φ := .f32) .oge
        ((zE + Ideal.div ((((h - μ) * Ideal.rsqrt (var + epsE)) * g + b) - zE) twoE) - oneE) zE)
      = spikeRef h μ var g b := rfl

/-- The reference's result at node `r` and feature `d`. -/
theorem ref_value (x0 : FVec Ideal S100000x64 .f32) (x1 : IVec S2x1600000 32) (x2 : FVec Ideal S1600000 .f32)
    (x3 : FVec Ideal S64x64 .f32) (x4 x5 x6 : FVec Ideal S64 .f32) (r : Fin 100000) (d : Fin 64) :
    Cert.ReferenceIdeal.Read.val_main_v100 (F := Ideal) x0 x1 x2 x3 x4 x5 x6 (ix2 r d)
      = refOut (hOf (fun r k => Cert.ReferenceIdeal.Read.val_main_v59 (F := Ideal) x0 x1 x2 (ix2 r k)) (fun d k => x3 (ix2 d k)) (fun d => x4 (ix1 d)))
          (fun d => x5 (ix1 d)) (fun d => x6 (ix1 d)) r d := by
  -- the spike: convert, compare with zero, subtract the threshold, add the charge to rest
  rw [Read.val_main_v100_apply, Read.val_main_v99_apply, Read.val_main_v98_apply, Read.val_main_cst_22_apply,
    Read.val_main_v97_apply, Read.val_main_v96_apply, Read.val_main_cst_21_apply,
    Read.val_main_v95_apply, Read.val_main_v94_apply, Read.val_main_cst_20_apply,
    Read.val_main_v93_apply, Read.val_main_v92_apply, Read.val_main_cst_19_apply,
    Read.val_main_v91_apply, Read.val_main_v90_apply, Read.val_main_cst_18_apply]
  -- the shift and the scale, each a per-feature vector read at `d`
  rw [Read.val_main_v89_apply, Read.val_main_v88_apply, Read.val_main_v87_apply, bidx88,
    Read.val_main_v86_apply, Read.val_main_v85_apply, Read.val_main_v84_apply, bidx85]
  -- the normalised entry: the deviation from the mean times the inverse root of the variance plus epsilon
  rw [Read.val_main_v83_apply, Read.val_main_v82_apply, Read.val_main_v81_apply, bidx82,
    Read.val_main_v80_apply, Read.val_main_v79_apply, var_value, Read.val_main_v78_apply, Read.val_main_cst_17_apply,
    Read.val_main_v77_apply, h_value, Read.val_main_v76_apply, Read.val_main_v75_apply, bidx76, mean_value]
  -- the float operations are the extended reals' own
  simp only [Ideal.addf_def, Ideal.subf_def, Ideal.mulf_def, Ideal.hostDivf_def, Ideal.hostUnary_rsqrt_def,
    Ideal.ofBits_def]
  unfold refOut
  with_reducible_and_instances exact spike_eq _ _ _ _ _

end Cert.RefValue

end
-- ==== Proof.Finite.lean ====
/-
  Every entry of the aggregated node features is a real number when the node features and the edge
  weights are; and the precondition says every float input's entries are real numbers.
-/
import proofs.«420227_j26465588478209_3_alg».proof.Proof.Gen.ReferenceIdeal.Read
import proofs.«420227_j26465588478209_3_alg».proof.Pre_finite_inputs
import proofs.«420227_j26465588478209_3_alg».proof.Proof.Gen.Pre_finite_inputs
import proofs.«420227_j26465588478209_3_alg».proof.Proof.LibFinite
import Idealize.ShloMosaic.Lib.ReduceAll

noncomputable section

namespace Cert.Finite

open Idealize.ShloMosaic Cert.LibFinite Cert.ReferenceIdeal

/-! ## Facts the chain needs beyond the one-operation lemmas -/

/-- A concatenation reads each of its entries from one of its parts, so it is real when every part is. -/
theorem allReal_concatenate (t : Shape) (a : Fin t.rank) (xs : List ((s : Shape) × (s.Idx → EReal)))
    (h : Shape.Concatenates (xs.map (·.1)) t a) (hx : ∀ p ∈ xs, AllReal p.2) :
    AllReal (concatenate t a xs h) := by
  intro j
  unfold concatenate
  exact hx _ (List.getElem_mem _) _

/-- The floor put under the degree, `1e-12` as a float word: `9223372 · 2⁻⁶³`, a positive real. -/
theorem ofBits_floor :
    FloatOps.ofBits (F := Ideal) .f32 0x2B8CBCCC#32 = (((9223372 : ℝ) * (2 : ℝ) ^ (-63 : Int) : ℝ) : EReal) := by
  show Ideal.ofBits .f32 0x2B8CBCCC#32 = _
  simp [Ideal.ofBits, Ideal.ieee, -EReal.coe_mul]

/-- The word `0x7F800000` is `+∞`. -/
theorem ofBits_inf : FloatOps.ofBits (F := Ideal) .f32 0x7F800000#32 = (⊤ : EReal) := by
  show Ideal.ofBits .f32 0x7F800000#32 = _
  simp [Ideal.ofBits, Ideal.ieee]

/-- The reciprocal square root of `max a c`, for a real `a` and a positive real `c`, is a real:
    the maximum is a positive real, off both corners of the reciprocal square root. -/
theorem isReal_rsqrt_max {a : EReal} (ha : IsReal a) {c : ℝ} (hc : 0 < c) :
    IsReal (Ideal.rsqrt (max a (c : EReal))) := by
  obtain ⟨r, rfl⟩ := ha
  have hm : 0 < max r c := lt_max_of_lt_right hc
  have e : max (r : EReal) (c : EReal) = ((max r c : ℝ) : EReal) := by
    rcases le_total r c with h | h
    · rw [max_eq_right h, max_eq_right (EReal.coe_le_coe_iff.mpr h)]
    · rw [max_eq_left h, max_eq_left (EReal.coe_le_coe_iff.mpr h)]
  rw [e, Ideal.rsqrt_coe, if_neg (not_lt.mpr hm.le), if_neg hm.ne']
  exact isReal_coe _

/-- The same, array by array: the reciprocal square root of a real array floored by positive reals. -/
theorem allReal_rsqrt_max {s : Shape} {x c : FVec Ideal s .f32} (hx : AllReal x)
    (hc : ∀ i, ∃ r : ℝ, 0 < r ∧ c i = (r : EReal)) :
    AllReal (Host.rsqrt (F := Ideal) (maximumf (F := Ideal) x c)) := by
  intro i
  show IsReal (Ideal.rsqrt (max (x i) (c i)))
  obtain ⟨r, hr, e⟩ := hc i
  rw [e]
  exact isReal_rsqrt_max (hx i) hr

/-! ## The chain, one float-valued stage at a time -/

section Chain
variable (x0 : FVec Ideal S100000x64 .f32) (x1 : IVec S2x1600000 32) (x2 : FVec Ideal S1600000 .f32)

/-- The self-loops' weights: all ones. -/
theorem real_v7 : AllReal (Read.val_main_v7 (F := Ideal)) := by
  unfold Read.val_main_v7 Read.val_main_cst
  exact allReal_broadcastInDim _ _ (allReal_constant_one _)

/-- The weights with the self-loops' appended. -/
theorem real_v8 (h2 : AllReal x2) : AllReal (Read.val_main_v8 (F := Ideal) x2) := by
  unfold Read.val_main_v8
  apply allReal_concatenate
  intro p hp
  simp only [List.mem_cons, List.not_mem_nil, or_false] at hp
  rcases hp with rfl | rfl
  · exact h2
  · exact real_v7

theorem real_v9 : AllReal (Read.val_main_v9 (F := Ideal)) := by
  unfold Read.val_main_v9 Read.val_main_cst_0
  exact allReal_broadcastInDim _ _ (allReal_constant_zero _)

/-- The degree: a finite sum of weights at each node. -/
theorem real_v11 (h2 : AllReal x2) : AllReal (Read.val_main_v11 (F := Ideal) x1 x2) := by
  unfold Read.val_main_v11
  exact allReal_scatterAdd _ _ real_v9 (real_v8 x2 h2)

/-- The floor, entry by entry: a positive real. -/
theorem v14_pos (i : S100000.Idx) : ∃ r : ℝ, 0 < r ∧ Read.val_main_v14 (F := Ideal) i = (r : EReal) := by
  refine ⟨(9223372 : ℝ) * (2 : ℝ) ^ (-63 : Int), by positivity, ?_⟩
  rw [Read.val_main_v14_apply, Read.val_main_cst_2_apply]
  exact ofBits_floor

/-- The reciprocal square root of the degree floored at `1e-12`. -/
theorem real_v16 (h2 : AllReal x2) : AllReal (Read.val_main_v16 (F := Ideal) x1 x2) := by
  unfold Read.val_main_v16 Read.val_main_v15
  exact allReal_rsqrt_max (real_v11 x1 x2 h2) v14_pos

theorem real_call0_v1 : AllReal (Read.val_main_call0_v1 (F := Ideal)) := by
  unfold Read.val_main_call0_v1 Read.val_main_call0_v0 Read.val_main_cst_3
  exact allReal_broadcastInDim _ _ (allReal_id (allReal_constant_zero _))

/-- The normaliser: the reciprocal square root where the degree is positive, zero elsewhere. -/
theorem real_v17 (h2 : AllReal x2) : AllReal (Read.val_main_v17 (F := Ideal) x1 x2) := by
  unfold Read.val_main_v17
  exact allReal_select _ (real_v16 x1 x2 h2) real_call0_v1

theorem real_v24 (h2 : AllReal x2) : AllReal (Read.val_main_v24 (F := Ideal) x1 x2) := by
  unfold Read.val_main_v24
  exact allReal_gather _ _ (real_v17 x1 x2 h2)

theorem real_v25 (h2 : AllReal x2) : AllReal (Read.val_main_v25 (F := Ideal) x1 x2) := by
  unfold Read.val_main_v25
  exact allReal_mulf (real_v24 x1 x2 h2) (real_v8 x2 h2)

theorem real_v32 (h2 : AllReal x2) : AllReal (Read.val_main_v32 (F := Ideal) x1 x2) := by
  unfold Read.val_main_v32
  exact allReal_gather _ _ (real_v17 x1 x2 h2)

/-- The normalised edge weight: normaliser at one end, times the weight, times normaliser at the other. -/
theorem real_v33 (h2 : AllReal x2) : AllReal (Read.val_main_v33 (F := Ideal) x1 x2) := by
  unfold Read.val_main_v33
  exact allReal_mulf (real_v25 x1 x2 h2) (real_v32 x1 x2 h2)

theorem real_v34 (h2 : AllReal x2) : AllReal (Read.val_main_v34 (F := Ideal) x1 x2) := by
  unfold Read.val_main_v34
  exact allReal_broadcastInDim _ _ (real_v33 x1 x2 h2)

theorem real_v41 (h0 : AllReal x0) : AllReal (Read.val_main_v41 (F := Ideal) x0 x1) := by
  unfold Read.val_main_v41
  exact allReal_gather _ _ h0

theorem real_v42 (h2 : AllReal x2) : AllReal (Read.val_main_v42 (F := Ideal) x1 x2) := by
  unfold Read.val_main_v42
  exact allReal_broadcastInDim _ _ (real_v34 x1 x2 h2)

theorem real_v43 (h0 : AllReal x0) (h2 : AllReal x2) : AllReal (Read.val_main_v43 (F := Ideal) x0 x1 x2) := by
  unfold Read.val_main_v43
  exact allReal_mulf (real_v42 x1 x2 h2) (real_v41 x0 x1 h0)

theorem real_v44 : AllReal (Read.val_main_v44 (F := Ideal)) := by
  unfold Read.val_main_v44 Read.val_main_cst_9
  exact allReal_broadcastInDim _ _ (allReal_constant_zero _)

/-- The first round of weighted neighbour sums. -/
theorem real_v46 (h0 : AllReal x0) (h2 : AllReal x2) : AllReal (Read.val_main_v46 (F := Ideal) x0 x1 x2) := by
  unfold Read.val_main_v46
  exact allReal_scatterAdd _ _ real_v44 (real_v43 x0 x1 x2 h0 h2)

theorem real_v47 (h2 : AllReal x2) : AllReal (Read.val_main_v47 (F := Ideal) x1 x2) := by
  unfold Read.val_main_v47
  exact allReal_broadcastInDim _ _ (real_v33 x1 x2 h2)

theorem real_v54 (h0 : AllReal x0) (h2 : AllReal x2) : AllReal (Read.val_main_v54 (F := Ideal) x0 x1 x2) := by
  unfold Read.val_main_v54
  exact allReal_gather _ _ (real_v46 x0 x1 x2 h0 h2)

theorem real_v55 (h2 : AllReal x2) : AllReal (Read.val_main_v55 (F := Ideal) x1 x2) := by
  unfold Read.val_main_v55
  exact allReal_broadcastInDim _ _ (real_v47 x1 x2 h2)

theorem real_v56 (h0 : AllReal x0) (h2 : AllReal x2) : AllReal (Read.val_main_v56 (F := Ideal) x0 x1 x2) := by
  unfold Read.val_main_v56
  exact allReal_mulf (real_v55 x1 x2 h2) (real_v54 x0 x1 x2 h0 h2)

theorem real_v57 : AllReal (Read.val_main_v57 (F := Ideal)) := by
  unfold Read.val_main_v57 Read.val_main_cst_12
  exact allReal_broadcastInDim _ _ (allReal_constant_zero _)

end Chain

/-- The two rounds of weighted neighbour sums keep real numbers real, whatever the edge list. -/
theorem agg_real (x0 : FVec Ideal S100000x64 .f32) (x1 : IVec S2x1600000 32) (x2 : FVec Ideal S1600000 .f32)
    (h0 : AllReal x0) (h2 : AllReal x2) :
    AllReal (Cert.ReferenceIdeal.Read.val_main_v59 (F := Ideal) x0 x1 x2) := by
  unfold Read.val_main_v59
  exact allReal_scatterAdd _ _ real_v57 (real_v56 x0 x1 x2 h0 h2)

/-! ## The precondition, read back -/

/-- An extended real whose absolute value is below `+∞` is a real number. -/
theorem isReal_of_abs_lt_top {x : EReal} (h : Ideal.cmp .olt (max x (-x)) ⊤ = 1#1) : IsReal x := by
  induction x using EReal.rec with
  | bot => simp [Ideal.cmp] at h
  | top => simp [Ideal.cmp] at h
  | coe r => exact isReal_coe r

/-- The same, array by array, against any array that is `+∞` everywhere. -/
theorem allReal_of_abs_lt_top {s : Shape} {x c : FVec Ideal s .f32} (hc : ∀ i, c i = (⊤ : EReal))
    (h : ∀ i, cmpf (F := Ideal) .olt (Host.absf (F := Ideal) x) c i = 1#1) : AllReal x := by
  intro i
  have hi := h i
  change Ideal.cmp .olt (max (x i) (-(x i))) (c i) = 1#1 at hi
  rw [hc i] at hi
  exact isReal_of_abs_lt_top hi

/-- The splat of a rank-zero constant reads that constant's word everywhere. -/
theorem bcast_constant_apply {t : Shape} (hb : Cert.Pre_finite_inputs.S_.BroadcastsInDim t (![] : Fin 0 → Fin t.rank))
    (b : BitVec 32) (i : t.Idx) :
    broadcastInDim t ![] hb (constant (F := Ideal) Cert.Pre_finite_inputs.S_ .f32 b) i = FloatOps.ofBits (F := Ideal) .f32 b := rfl

instance : Subsingleton Cert.Pre_finite_inputs.S_.Idx := ⟨fun a b => funext fun d => d.elim0⟩

/-- One conjunct of the precondition: `all (|x| < +∞)` says every entry of `x` is real. -/
theorem allReal_of_all {s : Shape} {axes : List (Fin s.rank)} (x : FVec Ideal s .f32)
    (hb : Cert.Pre_finite_inputs.S_.BroadcastsInDim s (![] : Fin 0 → Fin s.rank)) (init : IVec Cert.Pre_finite_inputs.S_ 1)
    (hr : s.ReducesTo axes Cert.Pre_finite_inputs.S_) (hu : 0 < Cert.Pre_finite_inputs.S_.numel)
    (e : Host.reduce IntOp.andi
          (cmpf (F := Ideal) .olt (Host.absf (F := Ideal) x)
            (broadcastInDim s ![] hb (constant (F := Ideal) Cert.Pre_finite_inputs.S_ .f32 0x7F800000#32)))
          init hr hu ValueIdx.ix0 = 1#1) : AllReal x :=
  allReal_of_abs_lt_top (fun i => (bcast_constant_apply hb _ i).trans ofBits_inf)
    (fun i => Host.reduce_andi_all _ init hr hu _ e i)

/-- The precondition, opened: each float input's entries are real numbers. -/
theorem inputs_real
    (a0 : FVec Ideal Cert.Pre_finite_inputs.S100000x64 .f32) (a1 : IVec Cert.Pre_finite_inputs.S2x1600000 32)
    (a2 : FVec Ideal Cert.Pre_finite_inputs.S1600000 .f32) (a3 : FVec Ideal Cert.Pre_finite_inputs.S64x64 .f32)
    (a4 a5 a6 : FVec Ideal Cert.Pre_finite_inputs.S64 .f32)
    (h : Cert.Pre_finite_inputs.fn (F := Ideal) a0 a1 a2 a3 a4 a5 a6 = fun _ => 1#1) :
    AllReal a0 ∧ AllReal a2 ∧ AllReal a3 ∧ AllReal a4 ∧ AllReal a5 ∧ AllReal a6 := by
  have h' := congrFun h ValueIdx.ix0
  dsimp only [Cert.Pre_finite_inputs.fn, Cert.Pre_finite_inputs.fn_part1, Idealize.ShloMosaic.andi] at h'
  simp only [IntOp.andi_eq_one] at h'
  obtain ⟨⟨⟨⟨⟨e0, e2⟩, e3⟩, e4⟩, e5⟩, e6⟩ := h'
  exact ⟨allReal_of_all a0 _ _ _ _ e0, allReal_of_all a2 _ _ _ _ e2, allReal_of_all a3 _ _ _ _ e3,
    allReal_of_all a4 _ _ _ _ e4, allReal_of_all a5 _ _ _ _ e5, allReal_of_all a6 _ _ _ _ e6⟩

end Cert.Finite

end
-- ==== Proof.lean ====
/-
  The certificate: a graph convolution followed by a spiking neuron, in two Pallas kernels, against its
  jnp reference, over the extended reals.

  Both programs first aggregate the node features over the normalised graph (two rounds of weighted
  neighbour sums: the same host operations on the same inputs, so the same array `X`), then project
  `h = X · Wᵀ + b`.  The reference normalises `h` by its mean and by the mean of its squared
  deviations over the 100000 nodes; the kernels take, per core, the column sums of `h` and of `h²`
  (first kernel), form the mean and `max (mean of squares − mean², 0)` on the host, and normalise
  with these (second kernel).  Under the precondition every input is a real number; then so is every
  entry of `X` (sums and products of reals, and the reciprocal square root of a positive real) and of
  `h`, the two variances are the same non-negative real, and the two spikes agree
  (`h·½ ≥ 1` iff `h/2 − 1 ≥ 0`).

  Each program runs to the end without a fault and leaves its arguments as launched (the frames); the
  idealized kernel program is the kernel program's own text read over the extended reals, so there is
  nothing to preserve beyond that.
-/
import proofs.«420227_j26465588478209_3_alg».proof.Defs
import proofs.«420227_j26465588478209_3_alg».proof.Proof.Gen.Kernel
import proofs.«420227_j26465588478209_3_alg».proof.Proof.Gen.Kernel.Skeleton
import proofs.«420227_j26465588478209_3_alg».proof.Proof.Gen.Kernel.Launch
import proofs.«420227_j26465588478209_3_alg».proof.Proof.Gen.Kernel.Points
import proofs.«420227_j26465588478209_3_alg».proof.Proof.Gen.Kernel.Frame
import proofs.«420227_j26465588478209_3_alg».proof.Proof.Gen.KernelIdeal
import proofs.«420227_j26465588478209_3_alg».proof.Proof.Gen.KernelIdeal.Skeleton
import proofs.«420227_j26465588478209_3_alg».proof.Proof.Gen.KernelIdeal.Launch
import proofs.«420227_j26465588478209_3_alg».proof.Proof.Gen.KernelIdeal.Points
import proofs.«420227_j26465588478209_3_alg».proof.Proof.Gen.KernelIdeal.Frame
import proofs.«420227_j26465588478209_3_alg».proof.Proof.Gen.ReferenceIdeal
import proofs.«420227_j26465588478209_3_alg».proof.Proof.Gen.Pre_finite_inputs
import proofs.«420227_j26465588478209_3_alg».proof.Proof.Gen.ReferenceIdeal.Run
import proofs.«420227_j26465588478209_3_alg».proof.Proof.Gen.ReferenceIdeal.Read
import proofs.«420227_j26465588478209_3_alg».proof.Proof.KernelRun
import proofs.«420227_j26465588478209_3_alg».proof.Proof.KernelOut
import proofs.«420227_j26465588478209_3_alg».proof.Proof.RefValue
import proofs.«420227_j26465588478209_3_alg».proof.Proof.Finite
import proofs.«420227_j26465588478209_3_alg».proof.Proof.Algebra
import Idealize.ShloMosaic.Adequacy
import Idealize.ShloMosaic.Init

noncomputable section

namespace Cert.Proof

open Idealize.ShloMosaic Idealize.ShloMosaic.ValueIdx Idealize.SL.Sem Cert.Spec Cert.LibFinite

/-- Under the precondition, from memories agreeing on the inputs, the reference's result is the kernel program's:
    entry by entry, the reference's spike of the projection equals the kernel's, because the projection is real. -/
theorem result_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Value.res_main_v100 (F := Ideal) m' c
      = Cert.KernelIdeal.Gen.W6 m ρ c (Proc.devRef .tc Cert.KernelIdeal.main_v74) := by
  rw [Cert.ReferenceIdeal.Read.val_main_v100_eq m' c, h0, h1, h2, h3, h4, h5, h6]
  obtain ⟨r0, r2, r3, r4, r5, r6⟩ := Cert.Finite.inputs_real _ _ _ _ _ _ _ (hpre c)
  have hX := Cert.Finite.agg_real _ (Cert.KernelIdeal.KV.a1 m c) _ r0 r2
  funext i
  obtain ⟨r, d, rfl⟩ : ∃ (r : Fin 100000) (d : Fin 64), i = ix2 r d := ⟨i 0, i 1, eq_ix2 i⟩
  refine (Cert.RefValue.ref_value _ _ _ _ _ _ _ r d).trans ?_
  refine Eq.trans ?_ (Cert.KernelIdeal.KO.result_eq m ρ c r d).symm
  exact (Cert.Algebra.out_eq _ _ _
    (fun r d => Cert.Algebra.hOf_real (fun r k => hX _) (fun d k => r3 _) (fun d => r4 _) r d)
    (fun d => r5 _) (fun d => r6 _) r d).symm

theorem algebraic : Cert.algebraic_KernelIdeal_ReferenceIdeal := fun m ρ m' ρ' hpre hagree =>
  ⟨fun c => Cert.KernelIdeal.Gen.W6 m ρ c (Proc.devRef .tc Cert.KernelIdeal.main_v74),
    Cert.KernelIdeal.RunV.run_value m ρ,
    (θ_run Cert.ReferenceIdeal.defs _ _).mono (fun _ h c =>
      ⟨(h c).1.trans (result_agree m ρ m' hpre c (hagree c).1 (hagree c).2.1 (hagree c).2.2.1 (hagree c).2.2.2.1
          (hagree c).2.2.2.2.1 (hagree c).2.2.2.2.2.1 (hagree c).2.2.2.2.2.2), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
